-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x4096 : Shape := ⟨2, ![64, 4096]⟩
abbrev S4096x1376 : Shape := ⟨2, ![4096, 1376]⟩
abbrev S32x1376 : Shape := ⟨2, ![32, 1376]⟩
abbrev S32x11008 : Shape := ⟨2, ![32, 11008]⟩
abbrev S11008 : Shape := ⟨1, ![11008]⟩
abbrev S_ : Shape := ⟨0, ![]⟩

class Facts : Prop where
  bcast_S_S64x4096 : S_.BroadcastsInDim S64x4096 (![] : Fin 0 → Fin S64x4096.rank)
  reducesTo_S64x4096_S_d0_1 : S64x4096.ReducesTo [0, 1] S_
  h_S_ : 0 < S_.numel
  bcast_S_S32x11008 : S_.BroadcastsInDim S32x11008 (![] : Fin 0 → Fin S32x11008.rank)
  reducesTo_S32x11008_S_d0_1 : S32x11008.ReducesTo [0, 1] S_
  bcast_S_S11008 : S_.BroadcastsInDim S11008 (![] : Fin 0 → Fin S11008.rank)
  reducesTo_S11008_S_d0 : S11008.ReducesTo [0] S_

variable [Facts]

def fn {F : FTy → Type} [FloatOps F] (main_arg0 : FVec F S64x4096 .f32) (main_arg1 : IVec S4096x1376 32) (main_arg2 : IVec S32x1376 32) (main_arg3 : FVec F S32x11008 .f32) (main_arg4 : FVec F S11008 .f32) : IVec S_ 1 :=
  let main_v0 : FVec F S64x4096 .f32 := Host.absf main_arg0
  let main_cst : FVec F S_ .f32 := constant S_ .f32 0x7F800000#32
  let main_v1 : FVec F S64x4096 .f32 := broadcastInDim S64x4096 ![] bcast_S_S64x4096 main_cst
  let main_v2 : IVec S64x4096 1 := cmpf .olt main_v0 main_v1
  let main_c : IVec S_ 1 := constantI S_ 1 1#1
  let main_v3 : IVec S_ 1 := (fun x v => Host.reduce IntOp.andi x v reducesTo_S64x4096_S_d0_1 h_S_) main_v2 main_c
  let main_v4 : FVec F S32x11008 .f32 := Host.absf main_arg3
  let main_cst_0 : FVec F S_ .f32 := constant S_ .f32 0x7F800000#32
  let main_v5 : FVec F S32x11008 .f32 := broadcastInDim S32x11008 ![] bcast_S_S32x11008 main_cst_0
  let main_v6 : IVec S32x11008 1 := cmpf .olt main_v4 main_v5
  let main_c_1 : IVec S_ 1 := constantI S_ 1 1#1
  let main_v7 : IVec S_ 1 := (fun x v => Host.reduce IntOp.andi x v reducesTo_S32x11008_S_d0_1 h_S_) main_v6 main_c_1
  let main_v8 : IVec S_ 1 := andi main_v3 main_v7
  let main_v9 : FVec F S11008 .f32 := Host.absf main_arg4
  let main_cst_2 : FVec F S_ .f32 := constant S_ .f32 0x7F800000#32
  let main_v10 : FVec F S11008 .f32 := broadcastInDim S11008 ![] bcast_S_S11008 main_cst_2
  let main_v11 : IVec S11008 1 := cmpf .olt main_v9 main_v10
  let main_c_3 : IVec S_ 1 := constantI S_ 1 1#1
  let main_v12 : IVec S_ 1 := (fun x v => Host.reduce IntOp.andi x v reducesTo_S11008_S_d0 h_S_) main_v11 main_c_3
  let main_v13 : IVec S_ 1 := andi main_v8 main_v12
  main_v13
-- ==== Kernel.lean ====
abbrev S64x4096 : Shape := ⟨2, ![64, 4096]⟩
abbrev S4096x1376 : Shape := ⟨2, ![4096, 1376]⟩
abbrev S32x1376 : Shape := ⟨2, ![32, 1376]⟩
abbrev S32x11008 : Shape := ⟨2, ![32, 11008]⟩
abbrev S11008 : Shape := ⟨1, ![11008]⟩
abbrev S8 : Shape := ⟨1, ![8]⟩
abbrev S32x1376x1 : Shape := ⟨3, ![32, 1376, 1]⟩
abbrev S1x1x8 : Shape := ⟨3, ![1, 1, 8]⟩
abbrev S32x1376x8 : Shape := ⟨3, ![32, 1376, 8]⟩
abbrev S_ : Shape := ⟨0, ![]⟩
abbrev S32x8x1376 : Shape := ⟨3, ![32, 8, 1376]⟩
abbrev S1x11008 : Shape := ⟨2, ![1, 11008]⟩
abbrev S1x1376x8 : Shape := ⟨3, ![1, 1376, 8]⟩
abbrev S1x8x1376 : Shape := ⟨3, ![1, 8, 1376]⟩
abbrev S32x1x11008 : Shape := ⟨3, ![32, 1, 11008]⟩
abbrev S64x11008 : Shape := ⟨2, ![64, 11008]⟩
abbrev S64x1024 : Shape := ⟨2, ![64, 1024]⟩
abbrev S1024x1376 : Shape := ⟨2, ![1024, 1376]⟩
abbrev S8x1x11008 : Shape := ⟨3, ![8, 1, 11008]⟩
abbrev S64x128 : Shape := ⟨2, ![64, 128]⟩
abbrev S128x1376 : Shape := ⟨2, ![128, 1376]⟩
abbrev S64 : Shape := ⟨1, ![64]⟩
abbrev S64x1 : Shape := ⟨2, ![64, 1]⟩
abbrev S64x1376 : Shape := ⟨2, ![64, 1376]⟩
abbrev S1x1x11008 : Shape := ⟨3, ![1, 1, 11008]⟩
abbrev S64x8x1376 : Shape := ⟨3, ![64, 8, 1376]⟩
abbrev S64x1376x8 : Shape := ⟨3, ![64, 1376, 8]⟩

abbrev nBuf : Space → Nat
  | .hbm => 34
  | .vmem => 10
  | .smem => 0
  | _ => 0

abbrev bufTy : (tb : Table) → Fin (tcTables nBuf tb) → BufTy
  | .hbm, ⟨0, _⟩ => ⟨S64x4096, .f32⟩
  | .hbm, ⟨1, _⟩ => ⟨S4096x1376, .i32⟩
  | .hbm, ⟨2, _⟩ => ⟨S32x1376, .i32⟩
  | .hbm, ⟨3, _⟩ => ⟨S32x11008, .f32⟩
  | .hbm, ⟨4, _⟩ => ⟨S11008, .f32⟩
  | .hbm, ⟨5, _⟩ => ⟨S8, .i32⟩
  | .hbm, ⟨6, _⟩ => ⟨S64x4096, .bf16⟩
  | .hbm, ⟨7, _⟩ => ⟨S32x1376x1, .i32⟩
  | .hbm, ⟨8, _⟩ => ⟨S1x1x8, .i32⟩
  | .hbm, ⟨9, _⟩ => ⟨S32x1376x8, .i32⟩
  | .hbm, ⟨10, _⟩ => ⟨S32x1376x8, .i32⟩
  | .hbm, ⟨11, _⟩ => ⟨S32x1376x8, .i32⟩
  | .hbm, ⟨12, _⟩ => ⟨S_, .i32⟩
  | .hbm, ⟨13, _⟩ => ⟨S32x1376x8, .i32⟩
  | .hbm, ⟨14, _⟩ => ⟨S32x1376x8, .i32⟩
  | .hbm, ⟨15, _⟩ => ⟨S32x11008, .i32⟩
  | .hbm, ⟨16, _⟩ => ⟨S32x11008, .f32⟩
  | .hbm, ⟨17, _⟩ => ⟨S32x11008, .f32⟩
  | .hbm, ⟨18, _⟩ => ⟨S32x1376x8, .f32⟩
  | .hbm, ⟨19, _⟩ => ⟨S32x8x1376, .f32⟩
  | .hbm, ⟨20, _⟩ => ⟨S32x11008, .f32⟩
  | .hbm, ⟨21, _⟩ => ⟨S32x1376x8, .f32⟩
  | .hbm, ⟨22, _⟩ => ⟨S32x8x1376, .f32⟩
  | .hbm, ⟨23, _⟩ => ⟨S32x11008, .f32⟩
  | .hbm, ⟨24, _⟩ => ⟨S1x11008, .f32⟩
  | .hbm, ⟨25, _⟩ => ⟨S1x1376x8, .f32⟩
  | .hbm, ⟨26, _⟩ => ⟨S1x8x1376, .f32⟩
  | .hbm, ⟨27, _⟩ => ⟨S1x11008, .f32⟩
  | .hbm, ⟨28, _⟩ => ⟨S32x1x11008, .f32⟩
  | .hbm, ⟨29, _⟩ => ⟨S32x1x11008, .f32⟩
  | .hbm, ⟨30, _⟩ => ⟨S64x11008, .f32⟩
  | .hbm, ⟨31, _⟩ => ⟨S64x8x1376, .f32⟩
  | .hbm, ⟨32, _⟩ => ⟨S64x1376x8, .f32⟩
  | .hbm, ⟨33, _⟩ => ⟨S64x11008, .f32⟩
  | .local _ .vmem, ⟨0, _⟩ => ⟨S64x1024, .bf16⟩
  | .local _ .vmem, ⟨1, _⟩ => ⟨S64x1024, .bf16⟩
  | .local _ .vmem, ⟨2, _⟩ => ⟨S1024x1376, .i32⟩
  | .local _ .vmem, ⟨3, _⟩ => ⟨S1024x1376, .i32⟩
  | .local _ .vmem, ⟨4, _⟩ => ⟨S8x1x11008, .f32⟩
  | .local _ .vmem, ⟨5, _⟩ => ⟨S8x1x11008, .f32⟩
  | .local _ .vmem, ⟨6, _⟩ => ⟨S8x1x11008, .f32⟩
  | .local _ .vmem, ⟨7, _⟩ => ⟨S8x1x11008, .f32⟩
  | .local _ .vmem, ⟨8, _⟩ => ⟨S1x11008, .f32⟩
  | .local _ .vmem, ⟨9, _⟩ => ⟨S64x11008, .f32⟩
  | _, _ => ⟨S64x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32_1 : BitVec 32 := 0#32
  let c8_i32 : BitVec 32 := 8#32
  let v3 : BitVec 32 := Scalar.addi c0_i32_1 c8_i32
  let c1_i32 : BitVec 32 := 1#32
  ⟨c0_i32_1, v3, c1_i32⟩
def k0_mult1 (k0_t1 : Fin k0_t1_loop.trips) : BitVec 32 :=
  let c0_i32_1 : BitVec 32 := 0#32
  let c1_i32 : BitVec 32 := 1#32
  let arg7 : BitVec 32 := Scf.iv c0_i32_1 c1_i32 k0_t1
  let c128_i32 : BitVec 32 := 128#32
  let v7 : BitVec 32 := Scalar.muli arg7 c128_i32
  v7
def k0_off1 (k0_t1 : Fin k0_t1_loop.trips) : Fin 2 → Nat :=
  let c0 : Index := 0#32
  let c0_i32_1 : BitVec 32 := 0#32
  let c1_i32 : BitVec 32 := 1#32
  let arg7 : BitVec 32 := Scf.iv c0_i32_1 c1_i32 k0_t1
  let c128_i32 : BitVec 32 := 128#32
  let v7 : BitVec 32 := Scalar.muli arg7 c128_i32
  let v8 : BitVec 32 := v7
  let v9 : Index := Scalar.indexCast v8
  ![0, v9.toNat]
def k0_off2 (k0_t1 : Fin k0_t1_loop.trips) : Fin 2 → Nat :=
  let c0_i32_1 : BitVec 32 := 0#32
  let c1_i32 : BitVec 32 := 1#32
  let arg7 : BitVec 32 := Scf.iv c0_i32_1 c1_i32 k0_t1
  let c128_i32 : BitVec 32 := 128#32
  let v7 : BitVec 32 := Scalar.muli arg7 c128_i32
  let v8 : BitVec 32 := v7
  let v12 : Index := Scalar.indexCast v8
  let c0_4 : Index := 0#32
  ![v12.toNat, 0]
def k0_off3 (k0_t1 : Fin k0_t1_loop.trips) : Fin 3 → Nat :=
  let c0_i32_1 : BitVec 32 := 0#32
  let c1_i32 : BitVec 32 := 1#32
  let arg7 : BitVec 32 := Scf.iv c0_i32_1 c1_i32 k0_t1
  let v66 : Index := Scalar.indexCast arg7
  let c0_22 : Index := 0#32
  let c0_23 : Index := 0#32
  ![v66.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S64x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1376 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1x11008 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1x11008 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x11008 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x11008 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

class Facts₀ : Prop where
  bitsLt_bf16_f32 : FTy.bits .bf16 < FTy.bits .f32
  bcast_S32x1376_S32x1376x1_0_1 : S32x1376.BroadcastsInDim S32x1376x1 (![0, 1] : Fin 2 → Fin S32x1376x1.rank)
  bcast_S8_S1x1x8_2 : S8.BroadcastsInDim S1x1x8 (![2] : Fin 1 → Fin S1x1x8.rank)
  bcast_S32x1376x1_S32x1376x8_0_1_2 : S32x1376x1.BroadcastsInDim S32x1376x8 (![0, 1, 2] : Fin 3 → Fin S32x1376x8.rank)
  bcast_S1x1x8_S32x1376x8_0_1_2 : S1x1x8.BroadcastsInDim S32x1376x8 (![0, 1, 2] : Fin 3 → Fin S32x1376x8.rank)
  bcast_S_S32x1376x8 : S_.BroadcastsInDim S32x1376x8 (![] : Fin 0 → Fin S32x1376x8.rank)
  shapeCasts_S32x1376x8_S32x11008 : S32x1376x8.ShapeCasts S32x11008
  shapeCasts_S32x11008_S32x1376x8 : S32x11008.ShapeCasts S32x1376x8
  transposes_S32x1376x8_S32x8x1376_0_2_1 : S32x1376x8.Transposes [0, 2, 1] S32x8x1376
  shapeCasts_S32x8x1376_S32x11008 : S32x8x1376.ShapeCasts S32x11008
  bcast_S11008_S1x11008_1 : S11008.BroadcastsInDim S1x11008 (![1] : Fin 1 → Fin S1x11008.rank)
  shapeCasts_S1x11008_S1x1376x8 : S1x11008.ShapeCasts S1x1376x8
  transposes_S1x1376x8_S1x8x1376_0_2_1 : S1x1376x8.Transposes [0, 2, 1] S1x8x1376
  shapeCasts_S1x8x1376_S1x11008 : S1x8x1376.ShapeCasts S1x11008
  shapeCasts_S32x11008_S32x1x11008 : S32x11008.ShapeCasts S32x1x11008
  inb_S64x11008_S64x11008_0_0 : ∀ a, (![0, 0] : Fin 2 → Nat) a + S64x11008.size a ≤ S64x11008.size a
  h_S64x11008 : 0 < S64x11008.numel
  h_S64x128 : 0 < S64x128.numel
  shapeCasts_S64x128_S64x128 : S64x128.ShapeCasts S64x128
  h_S128x1376 : 0 < S128x1376.numel
  reduces_S64x128_S64 : S64x128.Reduces [1] S64
  shapeCasts_S64_S64x1 : S64.ShapeCasts S64x1
  concatenates_S64x1376_S64x1376_S64x1376_S64x1376_S64x1376_S64x1376_S64x1376_S64x1376_S64x11008_d1 : Shape.Concatenates [S64x1376, S64x1376, S64x1376, S64x1376, S64x1376, S64x1376, S64x1376, S64x1376] S64x11008 1
  h_S1x1x11008 : 0 < S1x1x11008.numel
  shapeCasts_S1x1x11008_S1x11008 : S1x1x11008.ShapeCasts S1x11008
  broadcasts_S1x11008_S64x11008 : S1x11008.Broadcasts S64x11008
  broadcasts_S64x1_S64x11008 : S64x1.Broadcasts S64x11008
  shapeCasts_S64x11008_S64x11008 : S64x11008.ShapeCasts S64x11008
  inb_S1x11008_S1x11008_0_0 : ∀ a, (![0, 0] : Fin 2 → Nat) a + S1x11008.size a ≤ S1x11008.size a
  h_S1x11008 : 0 < S1x11008.numel
  shapeCasts_S1x11008_S1x11008 : S1x11008.ShapeCasts S1x11008
  shapeCasts_S64x11008_S64x8x1376 : S64x11008.ShapeCasts S64x8x1376
  transposes_S64x8x1376_S64x1376x8_0_2_1 : S64x8x1376.Transposes [0, 2, 1] S64x1376x8
  shapeCasts_S64x1376x8_S64x11008 : S64x1376x8.ShapeCasts S64x11008
  dot_S64x128_S128x1376_S64x1376_1_0_0_1_n_n_wf : DotDims.WF S64x128 S128x1376 S64x1376 [1] [0] [0] [1] [] []
  hrank0 : 0 < grid0.rank
  k0_t1_ok : k0_t1_loop.OK
  k0_mult1_dvd : ∀ k0_t1 : Fin k0_t1_loop.trips, 128 ∣ (k0_mult1 k0_t1).toNat
  k0_off1_inb : ∀ k0_t1 : Fin k0_t1_loop.trips, ∀ a, (k0_off1 k0_t1) a + S64x128.size a ≤ S64x1024.size a
  k0_off2_inb : ∀ k0_t1 : Fin k0_t1_loop.trips, ∀ a, (k0_off2 k0_t1) a + S128x1376.size a ≤ S1024x1376.size a
  k0_off3_inb : ∀ k0_t1 : Fin k0_t1_loop.trips, ∀ a, (k0_off3 k0_t1) a + S1x1x11008.size a ≤ S8x1x11008.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x1024.size a ≤ S64x4096.size a
  hwx0_0 : ∀ i : grid0.Coords, EltTy.bits .bf16 = 32 ∨ (Rect.block (s := S64x4096) S64x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1376.size a ≤ S4096x1376.size a
  hwx0_1 : ∀ i : grid0.Coords, EltTy.bits .i32 = 32 ∨ (Rect.block (s := S4096x1376) S1024x1376.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x1x11008.size a ≤ S32x1x11008.size a
  hwx0_2 : ∀ i : grid0.Coords, EltTy.bits .f32 = 32 ∨ (Rect.block (s := S32x1x11008) S8x1x11008.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x1x11008.size a ≤ S32x1x11008.size a
  hwx0_3 : ∀ i : grid0.Coords, EltTy.bits .f32 = 32 ∨ (Rect.block (s := S32x1x11008) S8x1x11008.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x11008.size a ≤ S1x11008.size a
  hwx0_4 : ∀ i : grid0.Coords, EltTy.bits .f32 = 32 ∨ (Rect.block (s := S1x11008) S1x11008.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x11008.size a ≤ S64x11008.size a
  hwx0_5 : ∀ i : grid0.Coords, EltTy.bits .f32 = 32 ∨ (Rect.block (s := S64x11008) S64x11008.size (cc0_transform_5 i) (hinb0_5 i)).WholeWords (EltTy.packing .f32)

variable [Facts₀]

def dot_S64x128_S128x1376_S64x1376_1_0_0_1_n_n : DotDims S64x128 S128x1376 S64x1376 where
  lhsContracting := [1]
  rhsContracting := [0]
  lhsNonContracting := [0]
  rhsNonContracting := [1]
  lhsBatch := []
  rhsBatch := []
  wf := dot_S64x128_S128x1376_S64x1376_1_0_0_1_n_n_wf

abbrev win0_0 : Pipeline.Window sig grid0 :=
  Pipeline.Window.ofSpec (Memref.whole main_v0) S64x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1376.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v21) S8x1x11008.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v22) S8x1x11008.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v20) S1x11008.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S64x11008.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S64x4096 : Shape := ⟨2, ![64, 4096]⟩
abbrev S4096x1376 : Shape := ⟨2, ![4096, 1376]⟩
abbrev S32x1376 : Shape := ⟨2, ![32, 1376]⟩
abbrev S32x11008 : Shape := ⟨2, ![32, 11008]⟩
abbrev S11008 : Shape := ⟨1, ![11008]⟩
abbrev S8 : Shape := ⟨1, ![8]⟩
abbrev S4096x1376x1 : Shape := ⟨3, ![4096, 1376, 1]⟩
abbrev S1x1x8 : Shape := ⟨3, ![1, 1, 8]⟩
abbrev S4096x1376x8 : Shape := ⟨3, ![4096, 1376, 8]⟩
abbrev S_ : Shape := ⟨0, ![]⟩
abbrev S4096x11008 : Shape := ⟨2, ![4096, 11008]⟩
abbrev S32x1376x1 : Shape := ⟨3, ![32, 1376, 1]⟩
abbrev S32x1376x8 : Shape := ⟨3, ![32, 1376, 8]⟩
abbrev S32x128x11008 : Shape := ⟨3, ![32, 128, 11008]⟩
abbrev S64x11008 : Shape := ⟨2, ![64, 11008]⟩
abbrev S1x11008 : Shape := ⟨2, ![1, 11008]⟩

abbrev nBuf : Space → Nat
  | .hbm => 35
  | .vmem => 0
  | .smem => 0
  | _ => 0

abbrev bufTy : (tb : Table) → Fin (tcTables nBuf tb) → BufTy
  | .hbm, ⟨0, _⟩ => ⟨S64x4096, .f32⟩
  | .hbm, ⟨1, _⟩ => ⟨S4096x1376, .i32⟩
  | .hbm, ⟨2, _⟩ => ⟨S32x1376, .i32⟩
  | .hbm, ⟨3, _⟩ => ⟨S32x11008, .f32⟩
  | .hbm, ⟨4, _⟩ => ⟨S11008, .f32⟩
  | .hbm, ⟨5, _⟩ => ⟨S8, .i32⟩
  | .hbm, ⟨6, _⟩ => ⟨S4096x1376x1, .i32⟩
  | .hbm, ⟨7, _⟩ => ⟨S1x1x8, .i32⟩
  | .hbm, ⟨8, _⟩ => ⟨S4096x1376x8, .i32⟩
  | .hbm, ⟨9, _⟩ => ⟨S4096x1376x8, .i32⟩
  | .hbm, ⟨10, _⟩ => ⟨S4096x1376x8, .i32⟩
  | .hbm, ⟨11, _⟩ => ⟨S_, .i32⟩
  | .hbm, ⟨12, _⟩ => ⟨S4096x1376x8, .i32⟩
  | .hbm, ⟨13, _⟩ => ⟨S4096x1376x8, .i32⟩
  | .hbm, ⟨14, _⟩ => ⟨S4096x11008, .i32⟩
  | .hbm, ⟨15, _⟩ => ⟨S32x1376x1, .i32⟩
  | .hbm, ⟨16, _⟩ => ⟨S1x1x8, .i32⟩
  | .hbm, ⟨17, _⟩ => ⟨S32x1376x8, .i32⟩
  | .hbm, ⟨18, _⟩ => ⟨S32x1376x8, .i32⟩
  | .hbm, ⟨19, _⟩ => ⟨S32x1376x8, .i32⟩
  | .hbm, ⟨20, _⟩ => ⟨S_, .i32⟩
  | .hbm, ⟨21, _⟩ => ⟨S32x1376x8, .i32⟩
  | .hbm, ⟨22, _⟩ => ⟨S32x1376x8, .i32⟩
  | .hbm, ⟨23, _⟩ => ⟨S32x11008, .i32⟩
  | .hbm, ⟨24, _⟩ => ⟨S32x128x11008, .i32⟩
  | .hbm, ⟨25, _⟩ => ⟨S4096x11008, .i32⟩
  | .hbm, ⟨26, _⟩ => ⟨S32x128x11008, .f32⟩
  | .hbm, ⟨27, _⟩ => ⟨S4096x11008, .f32⟩
  | .hbm, ⟨28, _⟩ => ⟨S4096x11008, .i32⟩
  | .hbm, ⟨29, _⟩ => ⟨S4096x11008, .f32⟩
  | .hbm, ⟨30, _⟩ => ⟨S4096x11008, .f32⟩
  | .hbm, ⟨31, _⟩ => ⟨S64x11008, .f32⟩
  | .hbm, ⟨32, _⟩ => ⟨S1x11008, .f32⟩
  | .hbm, ⟨33, _⟩ => ⟨S64x11008, .f32⟩
  | .hbm, ⟨34, _⟩ => ⟨S64x11008, .f32⟩
  | _, _ => ⟨S64x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩

abbrev nD : Nat := 1
abbrev τ : Topo := Topo.v7x

variable {F : FTy → Type} [FloatOps F]

class Facts₀ : Prop where
  bcast_S4096x1376_S4096x1376x1_0_1 : S4096x1376.BroadcastsInDim S4096x1376x1 (![0, 1] : Fin 2 → Fin S4096x1376x1.rank)
  bcast_S8_S1x1x8_2 : S8.BroadcastsInDim S1x1x8 (![2] : Fin 1 → Fin S1x1x8.rank)
  bcast_S4096x1376x1_S4096x1376x8_0_1_2 : S4096x1376x1.BroadcastsInDim S4096x1376x8 (![0, 1, 2] : Fin 3 → Fin S4096x1376x8.rank)
  bcast_S1x1x8_S4096x1376x8_0_1_2 : S1x1x8.BroadcastsInDim S4096x1376x8 (![0, 1, 2] : Fin 3 → Fin S4096x1376x8.rank)
  bcast_S_S4096x1376x8 : S_.BroadcastsInDim S4096x1376x8 (![] : Fin 0 → Fin S4096x1376x8.rank)
  shapeCasts_S4096x1376x8_S4096x11008 : S4096x1376x8.ShapeCasts S4096x11008
  bcast_S32x1376_S32x1376x1_0_1 : S32x1376.BroadcastsInDim S32x1376x1 (![0, 1] : Fin 2 → Fin S32x1376x1.rank)
  bcast_S32x1376x1_S32x1376x8_0_1_2 : S32x1376x1.BroadcastsInDim S32x1376x8 (![0, 1, 2] : Fin 3 → Fin S32x1376x8.rank)
  bcast_S1x1x8_S32x1376x8_0_1_2 : S1x1x8.BroadcastsInDim S32x1376x8 (![0, 1, 2] : Fin 3 → Fin S32x1376x8.rank)
  bcast_S_S32x1376x8 : S_.BroadcastsInDim S32x1376x8 (![] : Fin 0 → Fin S32x1376x8.rank)
  shapeCasts_S32x1376x8_S32x11008 : S32x1376x8.ShapeCasts S32x11008
  bcast_S32x11008_S32x128x11008_0_2 : S32x11008.BroadcastsInDim S32x128x11008 (![0, 2] : Fin 2 → Fin S32x128x11008.rank)
  shapeCasts_S32x128x11008_S4096x11008 : S32x128x11008.ShapeCasts S4096x11008
  bcast_S11008_S1x11008_1 : S11008.BroadcastsInDim S1x11008 (![1] : Fin 1 → Fin S1x11008.rank)
  bcast_S1x11008_S64x11008_0_1 : S1x11008.BroadcastsInDim S64x11008 (![0, 1] : Fin 2 → Fin S64x11008.rank)
  dot_S64x4096_S4096x11008_S64x11008_1_0_0_1_n_n_wf : DotDims.WF S64x4096 S4096x11008 S64x11008 [1] [0] [0] [1] [] []

variable [Facts₀]

def dot_S64x4096_S4096x11008_S64x11008_1_0_0_1_n_n : DotDims S64x4096 S4096x11008 S64x11008 where
  lhsContracting := [1]
  rhsContracting := [0]
  lhsNonContracting := [0]
  rhsNonContracting := [1]
  lhsBatch := []
  rhsBatch := []
  wf := dot_S64x4096_S4096x11008_S64x11008_1_0_0_1_n_n_wf

class Facts : Prop extends Facts₀ where

variable [Facts]
-- ==== Proof.KTrip.lean ====
/-
  One grid step of the kernel walks the eight groups of its tile in a counted loop; each trip loads the group's slice
  of the activations and of the packed weights, the group's scale row and folded zero-point row, reads the output block
  back, and stores the block advanced by the group's contribution.  This module names that step as a function of the
  block (`tripVal`), iterates it (`loopVal`), and shows that the stores the loop's trips make, read back, are that
  iteration: every trip's store covers the whole block, so the block reads the last trip's payload.
-/
import proofs.«427614_j45208825758173_3_alg».proof.Proof.Gen.KernelIdeal.Loops
import Idealize.ShloMosaic.Lib.Pipeline.Value
import Idealize.ShloMosaic.Lib.WholeRead
import Idealize.ShloMosaic.Lib.Tactic

set_option maxRecDepth 16384

noncomputable section

namespace Cert.KernelIdeal.Trip

open Cert.KernelIdeal Cert.KernelIdeal.Gen
open Idealize.ShloMosaic Idealize.ShloMosaic.TcCoe Idealize.ShloMosaic.Tactic
open Idealize.SL Idealize.SL.Sem

variable {F : FTy → Type} [FloatOps F]

theorem hz : (![0, 0] : Fin 2 → Nat) = fun _ => 0 := funext fun a => by fin_cases a <;> rfl

theorem trips_eq : k0_t1_loop.trips = 8 := by decide

/-- One group's step on the running block. -/
def tripVal (x0 : Vec F S64x1024 .bf16) (x1 : Vec F S1024x1376 .i32) (x2 x3 : Vec F S8x1x11008 .f32)
    (k : Fin k0_t1_loop.trips) (acc : Vec F S64x11008 .f32) : Vec F S64x11008 .f32 :=
  k0_pay2 (k0_pay4 (View.ld x0 (Rect.unit (s := S64x1024) (k0_off1 k) S64x128.size (k0_off1_inb k))))
    (View.ld x1 (Rect.unit (s := S1024x1376) (k0_off2 k) S128x1376.size (k0_off2_inb k)))
    (k0_pay5 (View.ld x0 (Rect.unit (s := S64x1024) (k0_off1 k) S64x128.size (k0_off1_inb k))))
    (k0_pay6 (View.ld x0 (Rect.unit (s := S64x1024) (k0_off1 k) S64x128.size (k0_off1_inb k))) (View.ld x1 (Rect.unit (s := S1024x1376) (k0_off2 k) S128x1376.size (k0_off2_inb k))))
    (k0_pay7 (View.ld x0 (Rect.unit (s := S64x1024) (k0_off1 k) S64x128.size (k0_off1_inb k))) (View.ld x1 (Rect.unit (s := S1024x1376) (k0_off2 k) S128x1376.size (k0_off2_inb k))))
    (k0_pay8 (View.ld x0 (Rect.unit (s := S64x1024) (k0_off1 k) S64x128.size (k0_off1_inb k))) (View.ld x1 (Rect.unit (s := S1024x1376) (k0_off2 k) S128x1376.size (k0_off2_inb k))))
    (k0_pay9 (View.ld x0 (Rect.unit (s := S64x1024) (k0_off1 k) S64x128.size (k0_off1_inb k))) (View.ld x1 (Rect.unit (s := S1024x1376) (k0_off2 k) S128x1376.size (k0_off2_inb k))))
    (k0_pay10 (View.ld x0 (Rect.unit (s := S64x1024) (k0_off1 k) S64x128.size (k0_off1_inb k))) (View.ld x1 (Rect.unit (s := S1024x1376) (k0_off2 k) S128x1376.size (k0_off2_inb k))))
    (View.ld x2 (Rect.unit (s := S8x1x11008) (k0_off3 k) S1x1x11008.size (k0_off3_inb k)))
    (View.ld x3 (Rect.unit (s := S8x1x11008) (k0_off3 k) S1x1x11008.size (k0_off3_inb k)))
    acc

section
variable (𝒱 : Variants) (c : Dev nD) (bd : Option 𝒱.V) (i : grid0.Coords)
  (arg1 : Memref sig .tc .vmem S64x1024 .bf16) (harg1 : arg1.IsWhole) (arg2 : Memref sig .tc .vmem S1024x1376 .i32) (harg2 : arg2.IsWhole)
  (arg3 : Memref sig .tc .vmem S8x1x11008 .f32) (harg3 : arg3.IsWhole) (arg4 : Memref sig .tc .vmem S8x1x11008 .f32) (harg4 : arg4.IsWhole)
  (arg5 : Memref sig .tc .vmem S1x11008 .f32) (harg5 : arg5.IsWhole) (arg6 : Memref sig .tc .vmem S64x11008 .f32) (harg6 : arg6.IsWhole)
  (x0 : Vec F S64x1024 .bf16) (x1 : Vec F S1024x1376 .i32) (x2 x3 : Vec F S8x1x11008 .f32)

/-- A trip's one store: the whole block, at the step's value over what the block held. -/
theorem tripL_eq (k : Fin k0_t1_loop.trips) (f6 : BufTy.Contents (Elt F) arg6.view.ty) :
    tripL_k0_t1 (F := F) 𝒱 c bd i arg1 harg1 arg2 harg2 arg3 harg3 arg4 harg4 arg5 harg5 arg6 harg6
        (harg1.unread x0) (harg2.unread x1) (harg3.unread x2) (harg4.unread x3) k f6
      = [⟨Rect.unit (s := S64x11008) ![0, 0] S64x11008.size inb_S64x11008_S64x11008_0_0,
          tripVal x0 x1 x2 x3 k (arg6.view.read (Elt F) f6)⟩] := by
  unfold tripL_k0_t1 trip_k0_t1
  dsimp only
  sl_unfold_words
  unfold tripVal
  simp only [View.readAt_eq_ld, Memref.IsWhole.read_unread, View.ld_unit_zero (S := S64x11008) hz]
  rfl

/-- A store through the whole block, made last, is what the block then reads. -/
theorem read_writes_cons_unit_zero {sig' : RefSig} {κ : Kind} {sp : Space} {S : Shape} {e : EltTy} {Val : EltTy → Type}
    (v : View sig' κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  subst h; funext y
  have e := View.read_writes_cons_emb v f (Rect.whole S) w L y
  rw [Rect.emb_whole_apply] at e
  exact e

/-- The block after the first `k` groups of a grid step, from the block `acc0` the step found. -/
def loopVal (x0 : Vec F S64x1024 .bf16) (x1 : Vec F S1024x1376 .i32) (x2 x3 : Vec F S8x1x11008 .f32)
    (acc0 : Vec F S64x11008 .f32) : ℕ → Vec F S64x11008 .f32
  | 0 => acc0
  | k + 1 => if h : k < k0_t1_loop.trips then tripVal x0 x1 x2 x3 ⟨k, h⟩ (loopVal x0 x1 x2 x3 acc0 k)
      else loopVal x0 x1 x2 x3 acc0 k

/-- After `k` trips the block reads the `k`-fold iteration of the step over what it held at loop entry. -/
theorem read_pb (G6 : BufTy.Contents (Elt F) arg6.view.ty) : ∀ k, k ≤ k0_t1_loop.trips →
    arg6.view.read (Elt F) (arg6.view.writes (Elt F) G6
      (pb_k0_t1 (F := F) 𝒱 c bd i arg1 harg1 arg2 harg2 arg3 harg3 arg4 harg4 arg5 harg5 arg6 harg6
        (harg1.unread x0) (harg2.unread x1) (harg3.unread x2) (harg4.unread x3) G6 k))
      = loopVal x0 x1 x2 x3 (arg6.view.read (Elt F) G6) k
  | 0, _ => rfl
  | k + 1, hk => by
    have hlt : k < k0_t1_loop.trips := hk
    rw [show pb_k0_t1 (F := F) 𝒱 c bd i arg1 harg1 arg2 harg2 arg3 harg3 arg4 harg4 arg5 harg5 arg6 harg6
        (harg1.unread x0) (harg2.unread x1) (harg3.unread x2) (harg4.unread x3) G6 (k + 1) = _ from
      pb_k0_t1_succ (F := F) 𝒱 c bd i arg1 harg1 arg2 harg2 arg3 harg3 arg4 harg4 arg5 harg5 arg6 harg6
        (harg1.unread x0) (harg2.unread x1) (harg3.unread x2) (harg4.unread x3) G6 ⟨k, hlt⟩]
    rw [tripL_eq, List.singleton_append, read_writes_cons_unit_zero _ _ hz]
    show tripVal x0 x1 x2 x3 ⟨k, hlt⟩ _ = loopVal x0 x1 x2 x3 _ (k + 1)
    rw [read_pb G6 k (Nat.le_of_lt hlt), loopVal, dif_pos hlt]

end

end Cert.KernelIdeal.Trip
end
-- ==== Proof.KOut.lean ====
/-
  What one grid step leaves in the output block, by case.  The first step stores the zero block and then runs the
  eight groups; a middle step runs the eight groups over the block the step before left; the last step does the same
  and then adds the bias row to every row of the block.
-/
import proofs.«427614_j45208825758173_3_alg».proof.Proof.KIFrame
import proofs.«427614_j45208825758173_3_alg».proof.Proof.KTrip

set_option maxRecDepth 16384

noncomputable section

namespace Cert.KernelIdeal.Trip

open Cert.KernelIdeal Cert.KernelIdeal.Gen Cert.KernelIdeal.GenP
open Idealize.ShloMosaic Idealize.ShloMosaic.TcCoe Idealize.ShloMosaic.Tactic
open Idealize.SL Idealize.SL.Sem

variable {F : FTy → Type} [FloatOps F]

variable (c : Dev nD) (i : grid0.Coords)
  (arg1 : Memref sig .tc .vmem S64x1024 .bf16) (harg1 : arg1.IsWhole) (arg2 : Memref sig .tc .vmem S1024x1376 .i32) (harg2 : arg2.IsWhole)
  (arg3 : Memref sig .tc .vmem S8x1x11008 .f32) (harg3 : arg3.IsWhole) (arg4 : Memref sig .tc .vmem S8x1x11008 .f32) (harg4 : arg4.IsWhole)
  (arg5 : Memref sig .tc .vmem S1x11008 .f32) (harg5 : arg5.IsWhole) (arg6 : Memref sig .tc .vmem S64x11008 .f32) (harg6 : arg6.IsWhole)
  (x0 : Vec F S64x1024 .bf16) (x1 : Vec F S1024x1376 .i32) (x2 x3 : Vec F S8x1x11008 .f32) (x4 : Vec F S1x11008 .f32)

theorem trips_lit : Scf.trips (0#32) (Scalar.addi 0#32 8#32) 1#32 = 8 := by decide

/-- A middle grid step leaves the block it found advanced by its eight groups. -/
theorem out_B (hc0 : ¬cond0_0 i) (hc1 : ¬cond0_1 i) (xo5 : Vec F S64x11008 .f32) :
    out0_B_5 c i arg1 harg1 arg2 harg2 arg3 harg3 arg4 harg4 arg5 harg5 arg6 harg6 hc0 hc1 x0 x1 x2 x3 x4 xo5
      = loopVal x0 x1 x2 x3 xo5 8 := by
  unfold out0_B_5
  rw [View.read_writes_of_cover VO0_5 VO0_5.junk arg6.view (harg6.unread xo5) _
    (fun y => cover0_B_5 c i arg1 harg1 arg2 harg2 arg3 harg3 arg4 harg4 arg5 harg5 arg6 harg6 hc0 hc1 x0 x1 x2 x3 x4 xo5 y)]
  unfold kernelRun0_B
  dsimp only
  rw [trips_lit]
  rw [read_pb Variants.none c none i arg1 harg1 arg2 harg2 arg3 harg3 arg4 harg4 arg5 harg5 arg6 harg6 x0 x1 x2 x3 _ 8 (by rw [trips_eq]),
    harg6.read_unread]

/-- The first grid step starts from the zero block. -/
theorem out_A (hc0 : cond0_0 i) (hc1 : ¬cond0_1 i) :
    out0_A_5 c i arg1 harg1 arg2 harg2 arg3 harg3 arg4 harg4 arg5 harg5 arg6 harg6 hc0 hc1 x0 x1 x2 x3 x4
      = loopVal x0 x1 x2 x3 (k0_pay1 (F := F)) 8 := by
  unfold out0_A_5
  rw [View.read_writes_of_cover VO0_5 VO0_5.junk arg6.view arg6.view.junk _
    (fun y => cover0_A_5 c i arg1 harg1 arg2 harg2 arg3 harg3 arg4 harg4 arg5 harg5 arg6 harg6 hc0 hc1 x0 x1 x2 x3 x4 y)]
  unfold kernelRun0_A
  dsimp only
  sl_unfold_words
  rw [trips_lit]
  rw [View.writes_append]
  rw [read_pb Variants.none c none i arg1 harg1 arg2 harg2 arg3 harg3 arg4 harg4 arg5 harg5 arg6 harg6 x0 x1 x2 x3 _ 8 (by rw [trips_eq]),
    read_writes_cons_unit_zero _ _ hz]

/-- The last grid step runs its eight groups and then adds the bias row. -/
theorem out_C (hc0 : ¬cond0_0 i) (hc1 : cond0_1 i) (xo5 : Vec F S64x11008 .f32) :
    out0_C_5 c i arg1 harg1 arg2 harg2 arg3 harg3 arg4 harg4 arg5 harg5 arg6 harg6 hc0 hc1 x0 x1 x2 x3 x4 xo5
      = k0_pay3 (loopVal x0 x1 x2 x3 xo5 8) x4 := by
  unfold out0_C_5
  rw [View.read_writes_of_cover VO0_5 VO0_5.junk arg6.view (harg6.unread xo5) _
    (fun y => cover0_C_5 c i arg1 harg1 arg2 harg2 arg3 harg3 arg4 harg4 arg5 harg5 arg6 harg6 hc0 hc1 x0 x1 x2 x3 x4 xo5 y)]
  unfold kernelRun0_C
  dsimp only
  rw [trips_lit, read_writes_cons_unit_zero _ _ hz]
  simp only [View.readAt_eq_ld, harg5.read_unread, View.ld_unit_zero (S := S64x11008) hz, View.ld_unit_zero (S := S1x11008) hz]
  rw [read_pb Variants.none c none i arg1 harg1 arg2 harg2 arg3 harg3 arg4 harg4 arg5 harg5 arg6 harg6 x0 x1 x2 x3 _ 8 (by rw [trips_eq]),
    harg6.read_unread]

end Cert.KernelIdeal.Trip
end
-- ==== Proof.KGrid.lean ====
/-
  The output block across the grid.  The pallas_call's one output block is resident over the four grid steps: step 0
  zeroes it and adds its eight groups, steps 1 and 2 add theirs to what the step before left, step 3 adds its own and
  then the bias row, and only after step 3 is the block written back — it is the whole result array.  So the array the
  call returns is the four-fold iteration of the step over the zero block, plus the bias.
-/
import proofs.«427614_j45208825758173_3_alg».proof.Proof.KOut
import Idealize.ShloMosaic.Lib.Pipeline.Value

set_option maxRecDepth 16384

noncomputable section

namespace Cert.KernelIdeal.Grid

open Cert.KernelIdeal Cert.KernelIdeal.Gen Cert.KernelIdeal.GenP Cert.KernelIdeal.Trip
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- The blocks a grid step is handed: its tile of the activations, of the packed weights, of the scale rows and of the
    folded zero-point rows, and the bias row. -/
abbrev xb (c : Dev nD) (t : Fin cfg0.N) : Vec F S64x1024 .bf16 := iblk m c 0 t
abbrev qb (c : Dev nD) (t : Fin cfg0.N) : Vec F S1024x1376 .i32 := iblk m c 1 t
abbrev sb (c : Dev nD) (t : Fin cfg0.N) : Vec F S8x1x11008 .f32 := iblk m c 2 t
abbrev zb (c : Dev nD) (t : Fin cfg0.N) : Vec F S8x1x11008 .f32 := iblk m c 3 t
abbrev bb (c : Dev nD) (t : Fin cfg0.N) : Vec F S1x11008 .f32 := iblk m c 4 t

/-- Grid step `t` applied to the block `acc`: its eight groups. -/
def stepAt (c : Dev nD) (t : Fin cfg0.N) (acc : Vec F S64x11008 .f32) : Vec F S64x11008 .f32 :=
  loopVal (xb m c t) (qb m c t) (sb m c t) (zb m c t) acc 8

/-- The output block after grid step `n`. -/
def chainAt (c : Dev nD) : (n : ℕ) → n < cfg0.N → Vec F S64x11008 .f32
  | 0, h => stepAt m c ⟨0, h⟩ (k0_pay1 (F := F))
  | n + 1, h =>
    if (n + 1) % 4 = 3 then k0_pay3 (stepAt m c ⟨n + 1, h⟩ (chainAt c n (Nat.lt_of_succ_lt h))) (bb m c ⟨n + 1, h⟩)
    else stepAt m c ⟨n + 1, h⟩ (chainAt c n (Nat.lt_of_succ_lt h))

/-- What the frame's run records for the output block after each step is that iteration: by induction on the step. -/
theorem outsAt_eq (c : Dev nD) : ∀ (n : ℕ) (h : n < cfg0.N), outsAt0 m c n h = chainAt m c n h
  | 0, h => (outsAt0_A m c ⟨0, h⟩ rfl (by show ¬(0 : ℕ) % 4 = 3; decide)).trans (out_A ..)
  | n + 1, h => by
    have hN : cfg0.N = 4 := N_0
    have h0 : ¬(⟨n + 1, h⟩ : Fin cfg0.N).val % 4 = 0 := by dsimp only; omega
    by_cases h3 : (n + 1) % 4 = 3
    · rw [outsAt0_C m c ⟨n + 1, h⟩ h0 h3, out_C, chainAt, if_pos h3]
      show k0_pay3 (loopVal _ _ _ _ (outsAt0 m c n _) 8) _ = k0_pay3 (loopVal _ _ _ _ (chainAt m c n _) 8) _
      rw [outsAt_eq c n]
    · rw [outsAt0_B m c ⟨n + 1, h⟩ h0 h3, out_B, chainAt, if_neg h3]
      show loopVal _ _ _ _ (outsAt0 m c n _) 8 = loopVal _ _ _ _ (chainAt m c n _) 8
      rw [outsAt_eq c n]

/-- The block after the last step, as contents of the call's result array. -/
abbrev result (c : Dev nD) : Buf (Elt F) ((c : Thread nD τ).loc main_v23) :=
  chainAt m c 3 (by rw [show cfg0.N = 4 from N_0]; decide)

/-- The one write-back, after step 3, writes that block: the window's one block is the whole array. -/
theorem flushed_eq (c : Dev nD) (t : Fin cfg0.N) (hf : (cfg0.win 5).flush t = true) :
    (dats m 0 c).flushed 5 t = ((cfg0.win 5).blk t).view.read (Elt F) (result m c) := by
  have hN : cfg0.N = 4 := N_0
  have h3 : t.val = 3 := by have := (flush0_5 t).mp hf; have := t.isLt; omega
  obtain rfl : t = t0_3 := Fin.ext h3
  show (cfg0.win 5).cut (grid0.coords t0_3) ((dats m 0 c).after 5 t0_3) = _
  rw [after0_5, outsAt_eq]
  have hz' : (fun a => win0_5.index t0_3 a * main_v23.ty.shape.size a) = fun _ => 0 := funext fun a => by fin_cases a <;> decide
  exact (Memref.read_access_unit_zero (Elt F) main_v23 hz' (fun a => by rw [congrFun hz' a]; simp) (result m c)).symm

/-- So the result array ends holding it. -/
theorem final_o (c : Dev nD) : (dats m 0 c).arrAt 5 cfg0.N = result m c :=
  (dats m 0 c).arrAt_eq_of_cover 5 (result m c) (flushed_eq m c) fun i =>
    ⟨t0_3, (flush0_5 t0_3).mpr rfl, by
      show i ∈ ((View.whole main_v23).slice (win0_5.rect t0_3)).set
      rw [View.set_slice_whole, Rect.mem_set_unit]
      intro a
      have h0 : (i 0 : Nat) < 64 := (i 0).isLt
      have h1 : (i 1 : Nat) < 11008 := (i 1).isLt
      match a with
      | ⟨0, _⟩ =>
        show win0_5.index t0_3 0 * win0_5.size 0 ≤ (i 0 : Nat) ∧ (i 0 : Nat) < win0_5.index t0_3 0 * win0_5.size 0 + win0_5.xsize (grid0.coords t0_3) 0
        rw [show win0_5.index t0_3 0 * win0_5.size 0 = 0 from by decide +kernel, show win0_5.xsize (grid0.coords t0_3) 0 = 64 from by decide +kernel]; omega
      | ⟨1, _⟩ =>
        show win0_5.index t0_3 1 * win0_5.size 1 ≤ (i 1 : Nat) ∧ (i 1 : Nat) < win0_5.index t0_3 1 * win0_5.size 1 + win0_5.xsize (grid0.coords t0_3) 1
        rw [show win0_5.index t0_3 1 * win0_5.size 1 = 0 from by decide +kernel, show win0_5.xsize (grid0.coords t0_3) 1 = 11008 from by decide +kernel]; omega⟩

end Cert.KernelIdeal.Grid
end
-- ==== Proof.Spec.lean ====
/-
  The arithmetic the two programs compute, stated once over plain index types.

  A packed word holds eight 4-bit fields; field `s` of a word `q` is `(q >> shiftOf s) & 15`, the shifts being
  0, 16, 4, 20, 8, 24, 12, 28 in the order the columns are laid out.  Column `n` of the unpacked matrix lives in
  word `n / 8`, field `n % 8`.  Row `k` belongs to group `k / 128`.

  The reference's value at (b, n) is  ∑ₖ x[b,k] · ((w[k,n] − z[k/128,n]) · sc[k/128,n]) + bias[n],  the difference
  of the two fields taken in 32-bit integers before it is read as a number.

  The kernel works on columns in field-major order: position `mm = s · 1376 + c` holds column `c · 8 + s`.  Per
  group `Gi` it adds  sc · (∑ⱼ x · w) − (∑ⱼ x) · (z · sc)  over the group's 128 rows, then the bias, and the
  positions are put back in column order at the end.
-/
import Idealize.ShloMosaic.PureOps.Ideal.Laws
import Idealize.ShloMosaic.Lib.ValueIdx

noncomputable section

namespace Cert.Awq

open Idealize.ShloMosaic Idealize.ShloMosaic.ValueIdx

/-- The shift that brings field `s` of a packed word down to the low four bits. -/
def shiftOf : Fin 8 → BitVec 32 := ![0#32, 16#32, 4#32, 20#32, 8#32, 24#32, 12#32, 28#32]

/-- Field `s` of the packed word `q`: an arithmetic shift right, then the low four bits. -/
def nib (q : BitVec 32) (s : Fin 8) : BitVec 32 := (q.sshiftRight' (shiftOf s)) &&& 15#32

/-- The field read as a number. -/
def nibR (q : BitVec 32) (s : Fin 8) : EReal := (((nib q s).toInt : ℝ) : EReal)

/-- Column `n` sits in packed word `n / 8` … -/
def colOf (n : Fin 11008) : Fin 1376 := ⟨n.val / 8, by have := n.isLt; omega⟩
/-- … as field `n % 8`. -/
def subOf (n : Fin 11008) : Fin 8 := ⟨n.val % 8, by omega⟩
/-- Field-major position `mm` holds packed word `mm % 1376` … -/
def pcol (mm : Fin 11008) : Fin 1376 := ⟨mm.val % 1376, by omega⟩
/-- … field `mm / 1376`. -/
def psub (mm : Fin 11008) : Fin 8 := ⟨mm.val / 1376, by have := mm.isLt; omega⟩
/-- The column a field-major position holds. -/
def unperm (mm : Fin 11008) : Fin 11008 := ⟨(mm.val % 1376) * 8 + mm.val / 1376, by have := mm.isLt; omega⟩
/-- The field-major position of a column. -/
def perm (n : Fin 11008) : Fin 11008 := ⟨(n.val % 8) * 1376 + n.val / 8, by have := n.isLt; omega⟩
/-- The group of a row. -/
def grp (k : Fin 4096) : Fin 32 := ⟨k.val / 128, by have := k.isLt; omega⟩
/-- Row `j` of group `Gi`. -/
def kOf (Gi : Fin 32) (j : Fin 128) : Fin 4096 := ⟨128 * Gi.val + j.val, by have := Gi.isLt; have := j.isLt; omega⟩

abbrev SX : Shape := ⟨2, ![64, 4096]⟩
abbrev SQ : Shape := ⟨2, ![4096, 1376]⟩
abbrev SZ : Shape := ⟨2, ![32, 1376]⟩
abbrev SS : Shape := ⟨2, ![32, 11008]⟩
abbrev SB : Shape := ⟨1, ![11008]⟩
abbrev SO : Shape := ⟨2, ![64, 11008]⟩

/-- The reference's value. -/
def G (x : SX.Idx → EReal) (qw : SQ.Idx → BitVec 32) (qz : SZ.Idx → BitVec 32) (sc : SS.Idx → EReal) (bias : SB.Idx → EReal) :
    SO.Idx → EReal := fun j =>
  (∑ k : Fin 4096, x (ix2 (j 0) k) *
      ((((nib (qw (ix2 k (colOf (j 1)))) (subOf (j 1)) - nib (qz (ix2 (grp k) (colOf (j 1)))) (subOf (j 1))).toInt : ℝ) : EReal)
        * sc (ix2 (grp k) (j 1))))
    + bias (ix1 (j 1))

/-- One group's contribution at field-major position `mm`. -/
def corr (x : SX.Idx → EReal) (qw : SQ.Idx → BitVec 32) (qz : SZ.Idx → BitVec 32) (sc : SS.Idx → EReal)
    (b : Fin 64) (mm : Fin 11008) (Gi : Fin 32) : EReal :=
  sc (ix2 Gi (unperm mm)) * (∑ j : Fin 128, x (ix2 b (kOf Gi j)) * nibR (qw (ix2 (kOf Gi j) (pcol mm))) (psub mm))
    - (∑ j : Fin 128, x (ix2 b (kOf Gi j))) * (nibR (qz (ix2 Gi (pcol mm))) (psub mm) * sc (ix2 Gi (unperm mm)))

/-- The kernel's array in field-major order. -/
def Kperm (x : SX.Idx → EReal) (qw : SQ.Idx → BitVec 32) (qz : SZ.Idx → BitVec 32) (sc : SS.Idx → EReal) (bias : SB.Idx → EReal) :
    SO.Idx → EReal := fun j =>
  (∑ Gi : Fin 32, corr x qw qz sc (j 0) (j 1) Gi) + bias (ix1 (unperm (j 1)))

/-- The kernel's result: the field-major array read back in column order. -/
def K (x : SX.Idx → EReal) (qw : SQ.Idx → BitVec 32) (qz : SZ.Idx → BitVec 32) (sc : SS.Idx → EReal) (bias : SB.Idx → EReal) :
    SO.Idx → EReal := fun j => Kperm x qw qz sc bias (ix2 (j 0) (perm (j 1)))

end Cert.Awq

end
-- ==== Proof.KPay.lean ====
/-
  One trip of the kernel's loop, read at one place of the output block.

  The trip loads 128 columns of the activations (rows b, columns 128·k … 128·k + 127), the matching 128 rows of the
  packed weights, and one row each of the scales and of the folded zero points.  From every packed word it takes the
  eight 4-bit fields in turn — shift right, keep the low four bits, read the result as a number — and multiplies the
  activation slice into each of the eight unpacked matrices; the eight products are laid side by side, field after
  field, so that place mm of the wide result lies in field mm / 1376 at column mm % 1376.  The wide result is scaled
  by the scale row, the row sums of the activation slice times the zero-point row are taken off, and the block is
  advanced by the difference.

  Read at (b, mm) this is
      block[b, mm] + ( scale[mm] · ∑ⱼ x[b, 128·k + j] · field(w[128·k + j, mm % 1376], mm / 1376)
                       − (∑ⱼ x[b, 128·k + j]) · zero[mm] ).
  Every step below is the reading of one operation at an index: a load is the array at the shifted index, a matrix
  product into zero is the sum over the contracted coordinate, a concatenation of equal pieces is the piece the
  coordinate's quotient names at the remainder, a broadcast repeats a row or a column, and a cast between shapes that
  differ in unit axes keeps the other coordinates.
-/
import proofs.«427614_j45208825758173_3_alg».proof.Proof.KTrip
import proofs.«427614_j45208825758173_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Pay

open Cert.KernelIdeal Cert.KernelIdeal.Gen Cert.KernelIdeal.Trip Cert.Awq
open Idealize.ShloMosaic Idealize.ShloMosaic.ValueIdx

/-! ### Where a trip loads from -/

/-- Trip k's activation slice starts at column 128·k. -/
private theorem off1_eq : ∀ k : Fin k0_t1_loop.trips, k0_off1 k = ![0, 128 * k.val] := by decide +kernel

/-- Its weight slice starts at row 128·k. -/
private theorem off2_eq : ∀ k : Fin k0_t1_loop.trips, k0_off2 k = ![128 * k.val, 0] := by decide +kernel

/-- Its scale and zero-point rows are row k. -/
private theorem off3_eq : ∀ k : Fin k0_t1_loop.trips, k0_off3 k = ![k.val, 0, 0] := by decide +kernel

/-- The trip's number as a row of the eight-row scale array. -/
def grpOf (k : Fin k0_t1_loop.trips) : Fin 8 := ⟨k.val, Nat.lt_of_lt_of_eq k.isLt trips_eq⟩

/-- Column j of trip k's slice, as a column of the whole tile. -/
def rowOf (k : Fin k0_t1_loop.trips) (j : Fin 128) : Fin 1024 :=
  ⟨128 * k.val + j.val, by have hk := Nat.lt_of_lt_of_eq k.isLt trips_eq; have hj := j.isLt; omega⟩

@[simp] theorem grpOf_val (k : Fin k0_t1_loop.trips) : (grpOf k).val = k.val := rfl

@[simp] theorem rowOf_val (k : Fin k0_t1_loop.trips) (j : Fin 128) : (rowOf k j).val = 128 * k.val + j.val := rfl

/-- The activation slice at (b, j) is the tile at (b, 128·k + j). -/
private theorem idx0 (k : Fin k0_t1_loop.trips) (b : Fin 64) (j : Fin 128) :
    (Rect.unit (s := S64x1024) (k0_off1 k) S64x128.size (k0_off1_inb k)).idx (ix2 b j) = ix2 b (rowOf k j) := by
  funext a; apply Fin.ext
  match a with
  | ⟨0, _⟩ =>
    show k0_off1 k 0 + 1 * b.val = b.val
    rw [off1_eq]; show 0 + 1 * b.val = b.val; omega
  | ⟨1, _⟩ =>
    show k0_off1 k 1 + 1 * j.val = 128 * k.val + j.val
    rw [off1_eq]; show 128 * k.val + 1 * j.val = 128 * k.val + j.val; omega

/-- The weight slice at (j, c) is the tile at (128·k + j, c). -/
private theorem idx1 (k : Fin k0_t1_loop.trips) (j : Fin 128) (c : Fin 1376) :
    (Rect.unit (s := S1024x1376) (k0_off2 k) S128x1376.size (k0_off2_inb k)).idx (ix2 j c) = ix2 (rowOf k j) c := by
  funext a; apply Fin.ext
  match a with
  | ⟨0, _⟩ =>
    show k0_off2 k 0 + 1 * j.val = 128 * k.val + j.val
    rw [off2_eq]; show 128 * k.val + 1 * j.val = 128 * k.val + j.val; omega
  | ⟨1, _⟩ =>
    show k0_off2 k 1 + 1 * c.val = c.val
    rw [off2_eq]; show 0 + 1 * c.val = c.val; omega

/-- The scale (or zero-point) row loaded at (0, 0, mm) is the array at (k, 0, mm). -/
private theorem idx2 (k : Fin k0_t1_loop.trips) (mm : Fin 11008) :
    (Rect.unit (s := S8x1x11008) (k0_off3 k) S1x1x11008.size (k0_off3_inb k)).idx (ix3 (0 : Fin 1) (0 : Fin 1) mm)
      = ix3 (grpOf k) (0 : Fin 1) mm := by
  funext a; apply Fin.ext
  match a with
  | ⟨0, _⟩ =>
    show k0_off3 k 0 + 1 * 0 = k.val
    rw [off3_eq]; show k.val + 1 * 0 = k.val; omega
  | ⟨1, _⟩ =>
    show k0_off3 k 1 + 1 * 0 = 0
    rw [off3_eq]; rfl
  | ⟨2, _⟩ =>
    show k0_off3 k 2 + 1 * mm.val = mm.val
    rw [off3_eq]; show 0 + 1 * mm.val = mm.val; omega

/-! ### The matrix product at an index -/

/-- A row coordinate of the left operand is the result's row. -/
private theorem lhs_ax0 (j : S64x1376.Idx) (q : dot_S64x128_S128x1376_S64x1376_1_0_0_1_n_n.contr.Idx) :
    (dot_S64x128_S128x1376_S64x1376_1_0_0_1_n_n.lhsIdx j q 0).val = (j 0).val := by
  simp [DotDims.lhsIdx, dot_S64x128_S128x1376_S64x1376_1_0_0_1_n_n]
  rfl

/-- Its column coordinate is the contracted coordinate. -/
private theorem lhs_ax1 (j : S64x1376.Idx) (q : dot_S64x128_S128x1376_S64x1376_1_0_0_1_n_n.contr.Idx) :
    (dot_S64x128_S128x1376_S64x1376_1_0_0_1_n_n.lhsIdx j q 1).val = (q ⟨0, by decide⟩).val :=
  DotDims.lhsIdx_val_of_single (d := dot_S64x128_S128x1376_S64x1376_1_0_0_1_n_n) (cl := 1) rfl j q

/-- A row coordinate of the right operand is the contracted coordinate. -/
private theorem rhs_ax0 (j : S64x1376.Idx) (q : dot_S64x128_S128x1376_S64x1376_1_0_0_1_n_n.contr.Idx) :
    (dot_S64x128_S128x1376_S64x1376_1_0_0_1_n_n.rhsIdx j q 0).val = (q ⟨0, by decide⟩).val :=
  DotDims.rhsIdx_val_of_single (d := dot_S64x128_S128x1376_S64x1376_1_0_0_1_n_n) (cr := 0) rfl j q

/-- Its column coordinate is the result's column. -/
private theorem rhs_ax1 (j : S64x1376.Idx) (q : dot_S64x128_S128x1376_S64x1376_1_0_0_1_n_n.contr.Idx) :
    (dot_S64x128_S128x1376_S64x1376_1_0_0_1_n_n.rhsIdx j q 1).val = (j 1).val := by
  simp [DotDims.rhsIdx, dot_S64x128_S128x1376_S64x1376_1_0_0_1_n_n]
  rfl

/-- A 64×128 by 128×1376 product accumulated into zero, at (b, c): the sum over the 128 contracted places. -/
private theorem matmul_zero_apply (lhs : FVec Ideal S64x128 .bf16) (rhs : FVec Ideal S128x1376 .bf16) (b : Fin 64) (c : Fin 1376) :
    matmul dot_S64x128_S128x1376_S64x1376_1_0_0_1_n_n none lhs rhs (constant (F := Ideal) S64x1376 .f32 0x00000000#32) (ix2 b c)
      = ∑ j : Fin 128, lhs (ix2 b j) * rhs (ix2 j c) := by
  show FloatOps.matmul dot_S64x128_S128x1376_S64x1376_1_0_0_1_n_n none lhs rhs _ (ix2 b c) = _
  rw [Ideal.matmul_constant_zero_apply,
    ← Equiv.sum_comp (contrEquiv1 dot_S64x128_S128x1376_S64x1376_1_0_0_1_n_n 128 rfl rfl).symm]
  refine Finset.sum_congr rfl fun j _ => ?_
  have cj := contrEquiv1_symm_val dot_S64x128_S128x1376_S64x1376_1_0_0_1_n_n 128 rfl rfl j
  have hl : dot_S64x128_S128x1376_S64x1376_1_0_0_1_n_n.lhsIdx (ix2 b c)
      ((contrEquiv1 dot_S64x128_S128x1376_S64x1376_1_0_0_1_n_n 128 rfl rfl).symm j) = ix2 b j := by
    funext ax; apply Fin.ext
    match ax with
    | ⟨0, _⟩ => exact lhs_ax0 _ _
    | ⟨1, _⟩ => exact (lhs_ax1 _ _).trans cj
  have hr : dot_S64x128_S128x1376_S64x1376_1_0_0_1_n_n.rhsIdx (ix2 b c)
      ((contrEquiv1 dot_S64x128_S128x1376_S64x1376_1_0_0_1_n_n 128 rfl rfl).symm j) = ix2 j c := by
    funext ax; apply Fin.ext
    match ax with
    | ⟨0, _⟩ => exact (rhs_ax0 _ _).trans cj
    | ⟨1, _⟩ => exact rhs_ax1 _ _
  rw [hl, hr]

/-- One field of the packed words as a matrix of numbers: shift right by the field's amount (below 32, so the
    shift is the arithmetic one), keep four bits, read as a signed integer. -/
private theorem field_apply (s : Fin 8) (hs : (shiftOf s).toNat < 32) (q : IVec S128x1376 32) (i : S128x1376.Idx) :
    (sitofp (F := Ideal) .bf16 (andi (shrsi q (broadcast S128x1376 (shiftOf s))) (broadcast S128x1376 15#32))) i
      = nibR (q i) s := by
  show FloatOps.sitofp (F := Ideal) .bf16 (IntOp.andi (IntOp.shrsi .vector (q i) (shiftOf s)) 15#32) = nibR (q i) s
  unfold IntOp.shrsi IntOp.andi nibR nib
  rw [if_pos hs]
  rfl

/-- The product of the activation slice with field s of the weight slice, at (b, c). -/
private theorem piece_apply (s : Fin 8) (hs : (shiftOf s).toNat < 32) (lhs : FVec Ideal S64x128 .bf16) (q : IVec S128x1376 32)
    (b : Fin 64) (c : Fin 1376) :
    matmul dot_S64x128_S128x1376_S64x1376_1_0_0_1_n_n none lhs
        (sitofp (F := Ideal) .bf16 (andi (shrsi q (broadcast S128x1376 (shiftOf s))) (broadcast S128x1376 15#32)))
        (constant (F := Ideal) S64x1376 .f32 0x00000000#32) (ix2 b c)
      = ∑ j : Fin 128, lhs (ix2 b j) * nibR (q (ix2 j c)) s := by
  rw [matmul_zero_apply]
  exact Finset.sum_congr rfl fun j _ => by rw [field_apply s hs]

/-! ### The small payloads -/

/-- A cast of a shape to itself changes nothing. -/
private theorem pay4_eq (v : Vec Ideal S64x128 .bf16) : k0_pay4 (F := Ideal) v = v := by
  unfold k0_pay4
  exact shapeCast_self _ _

/-- The lane sums of the activation slice, kept as a 64×1 column: at (b, 0) the sum of row b. -/
private theorem pay5_apply (v : Vec Ideal S64x128 .bf16) (b : Fin 64) :
    k0_pay5 (F := Ideal) v (ix2 b (0 : Fin 1)) = ∑ j : Fin 128, v (ix2 b j) := by
  unfold k0_pay5
  dsimp only
  rw [shapeCast_apply _ shapeCasts_S64_S64x1 (ix2 b (0 : Fin 1)) (ix1 b) (by
        rw [Shape.rowMajor_val_one, Shape.rowMajor_val_two]
        show b.val = b.val * 1 + 0
        omega)]
  refine (Ideal.multiReduction_add_single _ _ reduces_S64x128_S64 _ _ (ix1 b)).trans ?_
  refine Finset.sum_congr rfl fun j _ => ?_
  rw [extf_apply, pay4_eq]
  refine congrArg v (funext fun a => Fin.ext ?_)
  match a with
  | ⟨0, _⟩ => rfl
  | ⟨1, _⟩ => rfl

/-- The five products formed before the wide result is assembled are fields 0 to 4 of the slice. -/
private theorem pay6_apply (v : Vec Ideal S64x128 .bf16) (q : Vec Ideal S128x1376 .i32) (b : Fin 64) (c : Fin 1376) :
    k0_pay6 (F := Ideal) v q (ix2 b c) = ∑ j : Fin 128, v (ix2 b j) * nibR (q (ix2 j c)) 0 := by
  unfold k0_pay6
  rw [pay4_eq]
  exact piece_apply 0 (by decide) v q b c

private theorem pay7_apply (v : Vec Ideal S64x128 .bf16) (q : Vec Ideal S128x1376 .i32) (b : Fin 64) (c : Fin 1376) :
    k0_pay7 (F := Ideal) v q (ix2 b c) = ∑ j : Fin 128, v (ix2 b j) * nibR (q (ix2 j c)) 1 := by
  unfold k0_pay7
  rw [pay4_eq]
  exact piece_apply 1 (by decide) v q b c

private theorem pay8_apply (v : Vec Ideal S64x128 .bf16) (q : Vec Ideal S128x1376 .i32) (b : Fin 64) (c : Fin 1376) :
    k0_pay8 (F := Ideal) v q (ix2 b c) = ∑ j : Fin 128, v (ix2 b j) * nibR (q (ix2 j c)) 2 := by
  unfold k0_pay8
  rw [pay4_eq]
  exact piece_apply 2 (by decide) v q b c

private theorem pay9_apply (v : Vec Ideal S64x128 .bf16) (q : Vec Ideal S128x1376 .i32) (b : Fin 64) (c : Fin 1376) :
    k0_pay9 (F := Ideal) v q (ix2 b c) = ∑ j : Fin 128, v (ix2 b j) * nibR (q (ix2 j c)) 3 := by
  unfold k0_pay9
  rw [pay4_eq]
  exact piece_apply 3 (by decide) v q b c

private theorem pay10_apply (v : Vec Ideal S64x128 .bf16) (q : Vec Ideal S128x1376 .i32) (b : Fin 64) (c : Fin 1376) :
    k0_pay10 (F := Ideal) v q (ix2 b c) = ∑ j : Fin 128, v (ix2 b j) * nibR (q (ix2 j c)) 4 := by
  unfold k0_pay10
  rw [pay4_eq]
  exact piece_apply 4 (by decide) v q b c

/-! ### Layout -/

/-- An [a, 1] column repeated along [a, b] reads, at (p, c), the column at p. -/
private theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Dropping a unit axis from [1, 1, n] keeps the last coordinate. -/
private theorem cast_11n_1n_apply (v : Vec Ideal S1x1x11008 .f32) (mm : Fin 11008) :
    shapeCast S1x11008 v shapeCasts_S1x1x11008_S1x11008 (ix2 (0 : Fin 1) mm) = v (ix3 (0 : Fin 1) (0 : Fin 1) mm) := by
  refine shapeCast_apply v _ _ _ ?_
  rw [Shape.rowMajor_val_three, Shape.rowMajor_val_two]
  show (0 * 1 + 0) * 11008 + mm.val = 0 * 11008 + mm.val
  omega

/-- Eight 64×1376 pieces side by side: place mm of row b lies in piece mm / 1376 at column mm % 1376. -/
private theorem concat8_apply (w0 w1 w2 w3 w4 w5 w6 w7 : FVec Ideal S64x1376 .f32) (b : Fin 64) (mm : Fin 11008) :
    concatenate S64x11008 1 [⟨S64x1376, w0⟩, ⟨S64x1376, w1⟩, ⟨S64x1376, w2⟩, ⟨S64x1376, w3⟩, ⟨S64x1376, w4⟩,
        ⟨S64x1376, w5⟩, ⟨S64x1376, w6⟩, ⟨S64x1376, w7⟩]
        concatenates_S64x1376_S64x1376_S64x1376_S64x1376_S64x1376_S64x1376_S64x1376_S64x1376_S64x11008_d1 (ix2 b mm)
      = (![w0, w1, w2, w3, w4, w5, w6, w7] : Fin 8 → FVec Ideal S64x1376 .f32) (psub mm) (ix2 b (pcol mm)) := by
  refine concatenate_ofFn_apply (t := S64x11008) (s₁ := S64x1376) 1
    (![w0, w1, w2, w3, w4, w5, w6, w7] : Fin 8 → FVec Ideal S64x1376 .f32)
    concatenates_S64x1376_S64x1376_S64x1376_S64x1376_S64x1376_S64x1376_S64x1376_S64x1376_S64x11008_d1
    rfl 1376 rfl (ix2 b mm) (psub mm) rfl (ix2 b (pcol mm)) rfl fun ax hax => ?_
  match ax with
  | ⟨0, _⟩ => rfl
  | ⟨1, _⟩ => exact absurd rfl hax

/-- Of eight pieces, each known at (b, c), the one a field number picks. -/
private theorem pick8 (w0 w1 w2 w3 w4 w5 w6 w7 : FVec Ideal S64x1376 .f32) (b : Fin 64) (c : Fin 1376) (R : Fin 8 → EReal)
    (h0 : w0 (ix2 b c) = R 0) (h1 : w1 (ix2 b c) = R 1) (h2 : w2 (ix2 b c) = R 2) (h3 : w3 (ix2 b c) = R 3)
    (h4 : w4 (ix2 b c) = R 4) (h5 : w5 (ix2 b c) = R 5) (h6 : w6 (ix2 b c) = R 6) (h7 : w7 (ix2 b c) = R 7) (s : Fin 8) :
    (![w0, w1, w2, w3, w4, w5, w6, w7] : Fin 8 → FVec Ideal S64x1376 .f32) s (ix2 b c) = R s :=
  match s with
  | 0 => h0 | 1 => h1 | 2 => h2 | 3 => h3 | 4 => h4 | 5 => h5 | 6 => h6 | 7 => h7

/-! ### The loads read at an index -/

private theorem ld0_apply (x0 : Vec Ideal S64x1024 .bf16) (k : Fin k0_t1_loop.trips) (b : Fin 64) (j : Fin 128) :
    View.ld x0 (Rect.unit (s := S64x1024) (k0_off1 k) S64x128.size (k0_off1_inb k)) (ix2 b j) = x0 (ix2 b (rowOf k j)) :=
  congrArg x0 (idx0 k b j)

private theorem ld1_apply (x1 : Vec Ideal S1024x1376 .i32) (k : Fin k0_t1_loop.trips) (j : Fin 128) (c : Fin 1376) :
    View.ld x1 (Rect.unit (s := S1024x1376) (k0_off2 k) S128x1376.size (k0_off2_inb k)) (ix2 j c) = x1 (ix2 (rowOf k j) c) :=
  congrArg x1 (idx1 k j c)

private theorem ld2_apply (x : Vec Ideal S8x1x11008 .f32) (k : Fin k0_t1_loop.trips) (mm : Fin 11008) :
    View.ld x (Rect.unit (s := S8x1x11008) (k0_off3 k) S1x1x11008.size (k0_off3_inb k)) (ix3 (0 : Fin 1) (0 : Fin 1) mm)
      = x (ix3 (grpOf k) (0 : Fin 1) mm) :=
  congrArg x (idx2 k mm)

/-! ### The trip's step at an index -/

/-- The step over its operands: the block, plus the scale row times the wide product, less the row sums times the
    zero-point row.  The five products handed in are fields 0 to 4; fields 5 to 7 are formed inside. -/
private theorem pay2_apply (v11 : FVec Ideal S64x128 .bf16) (v13 : Vec Ideal S128x1376 .i32) (v16 : FVec Ideal S64x1 .f32)
    (v22 v28 v34 v40 v46 : FVec Ideal S64x1376 .f32) (v67 v70 : Vec Ideal S1x1x11008 .f32) (v78 : Vec Ideal S64x11008 .f32)
    (b : Fin 64) (mm : Fin 11008)
    (h22 : ∀ c, v22 (ix2 b c) = ∑ j : Fin 128, v11 (ix2 b j) * nibR (v13 (ix2 j c)) 0)
    (h28 : ∀ c, v28 (ix2 b c) = ∑ j : Fin 128, v11 (ix2 b j) * nibR (v13 (ix2 j c)) 1)
    (h34 : ∀ c, v34 (ix2 b c) = ∑ j : Fin 128, v11 (ix2 b j) * nibR (v13 (ix2 j c)) 2)
    (h40 : ∀ c, v40 (ix2 b c) = ∑ j : Fin 128, v11 (ix2 b j) * nibR (v13 (ix2 j c)) 3)
    (h46 : ∀ c, v46 (ix2 b c) = ∑ j : Fin 128, v11 (ix2 b j) * nibR (v13 (ix2 j c)) 4) :
    k0_pay2 (F := Ideal) v11 v13 v16 v22 v28 v34 v40 v46 v67 v70 v78 (ix2 b mm)
      = v78 (ix2 b mm)
        + (v67 (ix3 (0 : Fin 1) (0 : Fin 1) mm) * (∑ j : Fin 128, v11 (ix2 b j) * nibR (v13 (ix2 j (pcol mm))) (psub mm))
           - v16 (ix2 b (0 : Fin 1)) * v70 (ix3 (0 : Fin 1) (0 : Fin 1) mm)) := by
  unfold k0_pay2
  rw [addf_apply, subf_apply, mulf_apply, mulf_apply, shapeCast_self, broadcastTo_1b_ab_apply, broadcastTo_1b_ab_apply,
    broadcastTo_a1_ab_apply, cast_11n_1n_apply, cast_11n_1n_apply, concat8_apply]
  refine congrArg (fun t => v78 (ix2 b mm)
    + (v67 (ix3 (0 : Fin 1) (0 : Fin 1) mm) * t - v16 (ix2 b (0 : Fin 1)) * v70 (ix3 (0 : Fin 1) (0 : Fin 1) mm))) ?_
  exact pick8 _ _ _ _ _ _ _ _ b (pcol mm) (fun s => ∑ j : Fin 128, v11 (ix2 b j) * nibR (v13 (ix2 j (pcol mm))) s)
    (h22 _) (h28 _) (h34 _) (h40 _) (h46 _)
    (piece_apply 5 (by decide) v11 v13 b _) (piece_apply 6 (by decide) v11 v13 b _) (piece_apply 7 (by decide) v11 v13 b _)
    (psub mm)

theorem tripVal_apply (x0 : Vec Ideal S64x1024 .bf16) (x1 : Vec Ideal S1024x1376 .i32) (x2 x3 : Vec Ideal S8x1x11008 .f32)
    (k : Fin k0_t1_loop.trips) (acc : Vec Ideal S64x11008 .f32) (b : Fin 64) (mm : Fin 11008) :
    tripVal (F := Ideal) x0 x1 x2 x3 k acc (ix2 b mm)
      = acc (ix2 b mm)
        + (x2 (ix3 (grpOf k) (0 : Fin 1) mm)
            * (∑ j : Fin 128, x0 (ix2 b (rowOf k j)) * nibR (x1 (ix2 (rowOf k j) (pcol mm))) (psub mm))
           - (∑ j : Fin 128, x0 (ix2 b (rowOf k j))) * x3 (ix3 (grpOf k) (0 : Fin 1) mm)) := by
  unfold tripVal
  rw [pay4_eq]
  refine (pay2_apply _ _ _ _ _ _ _ _ _ _ _ b mm (fun c => pay6_apply _ _ b c) (fun c => pay7_apply _ _ b c)
    (fun c => pay8_apply _ _ b c) (fun c => pay9_apply _ _ b c) (fun c => pay10_apply _ _ b c)).trans ?_
  rw [pay5_apply, ld2_apply x2 k mm, ld2_apply x3 k mm]
  have s1 : (∑ j : Fin 128, View.ld x0 (Rect.unit (s := S64x1024) (k0_off1 k) S64x128.size (k0_off1_inb k)) (ix2 b j)
        * nibR (View.ld x1 (Rect.unit (s := S1024x1376) (k0_off2 k) S128x1376.size (k0_off2_inb k)) (ix2 j (pcol mm))) (psub mm))
      = ∑ j : Fin 128, x0 (ix2 b (rowOf k j)) * nibR (x1 (ix2 (rowOf k j) (pcol mm))) (psub mm) :=
    Finset.sum_congr rfl fun j _ => by rw [ld0_apply, ld1_apply]
  have s2 : (∑ j : Fin 128, View.ld x0 (Rect.unit (s := S64x1024) (k0_off1 k) S64x128.size (k0_off1_inb k)) (ix2 b j))
      = ∑ j : Fin 128, x0 (ix2 b (rowOf k j)) :=
    Finset.sum_congr rfl fun j _ => ld0_apply x0 k b j
  rw [s1, s2]

/-- The closing step adds the bias row to every row of the block. -/
theorem pay3_apply (acc : Vec Ideal S64x11008 .f32) (bv : Vec Ideal S1x11008 .f32) (b : Fin 64) (mm : Fin 11008) :
    k0_pay3 (F := Ideal) acc bv (ix2 b mm) = acc (ix2 b mm) + bv (ix2 (0 : Fin 1) mm) := by
  unfold k0_pay3
  rw [addf_apply, shapeCast_self, shapeCast_self, broadcastTo_1b_ab_apply]

/-- The opening step fills the block with zero. -/
theorem pay1_apply (b : Fin 64) (mm : Fin 11008) : k0_pay1 (F := Ideal) (ix2 b mm) = 0 := by
  unfold k0_pay1
  exact Ideal.ofBits_zero_f32

end Cert.KernelIdeal.Pay

end
-- ==== Proof.KHost.lean ====
/-
  The part of the kernel's program that runs outside the pipelined call, read entry by entry over the extended reals.

  Before the call the program prepares five arrays.  The activations are cast to a narrower format, which changes no
  extended real.  The packed zero points are unpacked: every 32-bit word is repeated eight times, shifted right by
  0, 16, 4, 20, 8, 24, 12, 28 and masked to four bits, so that column n of the unpacked array is field n % 8 of word
  n / 8; read as numbers they are multiplied by the scales.  The scales, that product and the bias are then put in
  field-major order: a row of 11008 columns is read as 1376 words of 8 fields, the two axes are exchanged, and the
  row is read flat again, so position mm = s · 1376 + c holds column c · 8 + s.  A unit axis is added in the middle of
  the two 32-row arrays.

  At grid point t the call sees columns 1024 t … 1024 t + 1023 of the activations, rows 1024 t … 1024 t + 1023 of the
  packed weights, groups 8 t … 8 t + 7 of the two 32-row arrays, and the whole bias row.

  After the call the result, held in field-major order, is read as 8 fields of 1376 words, the two axes are
  exchanged, and it is read flat again: column n of the program's result is position (n % 8) · 1376 + n / 8 of the
  array the call left.
-/
import proofs.«427614_j45208825758173_3_alg».proof.Proof.Gen.KernelIdeal.Frame.Runs
import proofs.«427614_j45208825758173_3_alg».proof.Proof.Spec
import Idealize.ShloMosaic.Lib.Pipeline.Value
import Idealize.ShloMosaic.Lib.ValueIdx
import Idealize.ShloMosaic.Lib.ValueLayout
import Idealize.ShloMosaic.Lib.IdealHost
import Idealize.ShloMosaic.Lib.StableHlo.Run
import Idealize.ShloMosaic.PureOps.Ideal.Laws

set_option maxRecDepth 16384

noncomputable section

namespace Cert.KernelIdeal.Host

open Cert.KernelIdeal Cert.KernelIdeal.Gen Cert.Awq Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (c : Dev nD)

/-! ## The two re-layouts, read at an index -/

section Layout
variable {α : Type}

/-- Columns put in field-major order: a `[R, 11008]` array read as `[R, 1376, 8]`, its last two axes exchanged, and
    read back as `[R, 11008]` holds, at position `mm = s · 1376 + c`, the operand's column `c · 8 + s`. -/
theorem fieldMajor_apply {R : ℕ} (X : (⟨2, ![R, 11008]⟩ : Shape).Idx → α)
    (h1 : (⟨2, ![R, 11008]⟩ : Shape).ShapeCasts ⟨3, ![R, 1376, 8]⟩)
    (h2 : (⟨3, ![R, 1376, 8]⟩ : Shape).Transposes [0, 2, 1] ⟨3, ![R, 8, 1376]⟩)
    (h3 : (⟨3, ![R, 8, 1376]⟩ : Shape).ShapeCasts ⟨2, ![R, 11008]⟩) (g : Fin R) (mm : Fin 11008) :
    shapeCast ⟨2, ![R, 11008]⟩ (transpose ⟨3, ![R, 8, 1376]⟩ [0, 2, 1] (shapeCast ⟨3, ![R, 1376, 8]⟩ X h1) h2) h3 (ix2 g mm)
      = X (ix2 g (unperm mm)) := by
  refine (shapeCast_apply _ h3 (ix2 g mm) (ix3 g (psub mm) (pcol mm)) ?_).trans ?_
  · rw [Shape.rowMajor_val_three, Shape.rowMajor_val_two]
    show (g.val * 8 + mm.val / 1376) * 1376 + mm.val % 1376 = g.val * 11008 + mm.val
    omega
  refine (transpose_ix3_021_apply _ h2 g (psub mm) (pcol mm)).trans ?_
  refine shapeCast_apply X h1 (ix3 g (pcol mm) (psub mm)) (ix2 g (unperm mm)) ?_
  rw [Shape.rowMajor_val_three, Shape.rowMajor_val_two]
  show g.val * 11008 + (mm.val % 1376 * 8 + mm.val / 1376) = (g.val * 1376 + mm.val % 1376) * 8 + mm.val / 1376
  omega

/-- Back to column order: a `[64, 11008]` array read as `[64, 8, 1376]`, its last two axes exchanged, and read back as
    `[64, 11008]` holds, at column `n`, the operand's position `(n % 8) · 1376 + n / 8`. -/
theorem columnOrder_apply (Y : (⟨2, ![64, 11008]⟩ : Shape).Idx → α)
    (h1 : (⟨2, ![64, 11008]⟩ : Shape).ShapeCasts ⟨3, ![64, 8, 1376]⟩)
    (h2 : (⟨3, ![64, 8, 1376]⟩ : Shape).Transposes [0, 2, 1] ⟨3, ![64, 1376, 8]⟩)
    (h3 : (⟨3, ![64, 1376, 8]⟩ : Shape).ShapeCasts ⟨2, ![64, 11008]⟩) (b : Fin 64) (n : Fin 11008) :
    shapeCast ⟨2, ![64, 11008]⟩ (transpose ⟨3, ![64, 1376, 8]⟩ [0, 2, 1] (shapeCast ⟨3, ![64, 8, 1376]⟩ Y h1) h2) h3 (ix2 b n)
      = Y (ix2 b (perm n)) := by
  refine (shapeCast_apply _ h3 (ix2 b n) (ix3 b (colOf n) (subOf n)) ?_).trans ?_
  · rw [Shape.rowMajor_val_three, Shape.rowMajor_val_two]
    show (b.val * 1376 + n.val / 8) * 8 + n.val % 8 = b.val * 11008 + n.val
    omega
  refine (transpose_ix3_021_apply _ h2 b (colOf n) (subOf n)).trans ?_
  refine shapeCast_apply Y h1 (ix3 b (subOf n) (colOf n)) (ix2 b (perm n)) ?_
  rw [Shape.rowMajor_val_three, Shape.rowMajor_val_two]
  show b.val * 11008 + (n.val % 8 * 1376 + n.val / 8) = (b.val * 8 + n.val % 8) * 1376 + n.val / 8
  omega

/-- A unit middle axis added: a `[32, 11008]` array read as `[32, 1, 11008]` holds at `(g, 0, mm)` the operand's `(g, mm)`. -/
theorem addMiddleUnit_apply (X : (⟨2, ![32, 11008]⟩ : Shape).Idx → α)
    (h : (⟨2, ![32, 11008]⟩ : Shape).ShapeCasts ⟨3, ![32, 1, 11008]⟩) (g : Fin 32) (u : Fin 1) (mm : Fin 11008) :
    shapeCast ⟨3, ![32, 1, 11008]⟩ X h (ix3 g u mm) = X (ix2 g mm) := by
  refine shapeCast_apply X h (ix3 g u mm) (ix2 g mm) ?_
  rw [Shape.rowMajor_val_three, Shape.rowMajor_val_two]
  show g.val * 11008 + mm.val = (g.val * 1 + u.val) * 11008 + mm.val
  have := u.isLt
  omega

end Layout

/-! ## What the arrays hold when the call is entered -/

/-- The activations cast to the narrower format: the same extended reals. -/
theorem V_v0_eq : (V m c main_v0 : S64x4096.Idx → EReal) = (truncf (F := Ideal) .bf16 (m ((c : Thread nD τ).loc main_arg0) : FVec Ideal S64x4096 .f32) bitsLt_bf16_f32 : FVec Ideal S64x4096 .bf16) := by
  show StableHlo.after hostOps0 (fun b => m (c, b)) (Proc.devRef .tc main_v0) = _
  after_results

theorem V_v0_apply (b : Fin 64) (k : Fin 4096) : (V m c main_v0 : S64x4096.Idx → EReal) (ix2 b k) = m ((c : Thread nD τ).loc main_arg0) (ix2 b k) := by
  rw [V_v0_eq]; rfl

/-- The scales in field-major order, with a unit middle axis. -/
theorem V_v21_eq : (V m c main_v21 : S32x1x11008.Idx → EReal) =
    shapeCast S32x1x11008 (shapeCast S32x11008 (transpose S32x8x1376 [0, 2, 1] (shapeCast S32x1376x8 (m ((c : Thread nD τ).loc main_arg3) : S32x11008.Idx → EReal) shapeCasts_S32x11008_S32x1376x8) transposes_S32x1376x8_S32x8x1376_0_2_1) shapeCasts_S32x8x1376_S32x11008) shapeCasts_S32x11008_S32x1x11008 := by
  show StableHlo.after hostOps0 (fun b => m (c, b)) (Proc.devRef .tc main_v21) = _
  after_results
  rfl

theorem V_v21_apply (g : Fin 32) (mm : Fin 11008) : (V m c main_v21 : S32x1x11008.Idx → EReal) (ix3 g (0 : Fin 1) mm) = m ((c : Thread nD τ).loc main_arg3) (ix2 g (unperm mm)) := by
  rw [V_v21_eq]
  refine (addMiddleUnit_apply _ shapeCasts_S32x11008_S32x1x11008 g 0 mm).trans ?_
  exact fieldMajor_apply _ shapeCasts_S32x11008_S32x1376x8 transposes_S32x1376x8_S32x8x1376_0_2_1 shapeCasts_S32x8x1376_S32x11008 g mm

/-- The bias as one row, in field-major order. -/
theorem V_v20_eq : (V m c main_v20 : S1x11008.Idx → EReal) =
    shapeCast S1x11008 (transpose S1x8x1376 [0, 2, 1] (shapeCast S1x1376x8 (broadcastInDim S1x11008 ![1] bcast_S11008_S1x11008_1 (m ((c : Thread nD τ).loc main_arg4) : S11008.Idx → EReal)) shapeCasts_S1x11008_S1x1376x8) transposes_S1x1376x8_S1x8x1376_0_2_1) shapeCasts_S1x8x1376_S1x11008 := by
  show StableHlo.after hostOps0 (fun b => m (c, b)) (Proc.devRef .tc main_v20) = _
  after_results
  rfl

theorem V_v20_apply (mm : Fin 11008) : (V m c main_v20 : S1x11008.Idx → EReal) (ix2 (0 : Fin 1) mm) = m ((c : Thread nD τ).loc main_arg4) (ix1 (unperm mm)) := by
  rw [V_v20_eq]
  refine (fieldMajor_apply _ shapeCasts_S1x11008_S1x1376x8 transposes_S1x1376x8_S1x8x1376_0_2_1 shapeCasts_S1x8x1376_S1x11008 (0 : Fin 1) mm).trans ?_
  refine broadcastInDim_apply _ bcast_S11008_S1x11008_1 _ (ix2 (0 : Fin 1) (unperm mm)) (ix1 (unperm mm)) fun a => ?_
  match a with
  | ⟨0, _⟩ => rfl

/-! ## The zero-point fields -/

/-- The shift table the program carries is the one the packed layout is described with. -/
theorem lit0_eq_shiftOf : ∀ s : Fin 8, lit0 s = shiftOf s := by decide

/-- Every shift of the table is below the word width. -/
theorem shiftOf_lt : ∀ s : Fin 8, (shiftOf s).toNat < 32 := by decide

/-- The zero points unpacked on the host: every packed word repeated eight times, shifted right by the table's
    entries, masked to four bits, and laid out with the eight fields of a word next to each other. -/
def zfields (qz : S32x1376.Idx → BitVec 32) : S32x11008.Idx → BitVec 32 :=
  shapeCast S32x11008
    (andi
      (Host.shrsi
        (broadcastInDim S32x1376x8 ![0, 1, 2] bcast_S32x1376x1_S32x1376x8_0_1_2
          (broadcastInDim S32x1376x1 ![0, 1] bcast_S32x1376_S32x1376x1_0_1 qz))
        (broadcastInDim S32x1376x8 ![0, 1, 2] bcast_S1x1x8_S32x1376x8_0_1_2
          (broadcastInDim S1x1x8 ![2] bcast_S8_S1x1x8_2 (fun i : S8.Idx => lit0 (S8.rowMajor i)))))
      (broadcastInDim S32x1376x8 ![] bcast_S_S32x1376x8 (constantI S_ 32 15#32)))
    shapeCasts_S32x1376x8_S32x11008

/-- Column `n` of the unpacked zero points is field `n % 8` of packed word `n / 8`. -/
theorem zfields_apply (qz : S32x1376.Idx → BitVec 32) (g : Fin 32) (n : Fin 11008) :
    zfields qz (ix2 g n) = nib (qz (ix2 g (colOf n))) (subOf n) := by
  unfold zfields
  refine (shapeCast_apply _ shapeCasts_S32x1376x8_S32x11008 (ix2 g n) (ix3 g (colOf n) (subOf n)) ?_).trans ?_
  · rw [Shape.rowMajor_val_three, Shape.rowMajor_val_two]
    show (g.val * 1376 + n.val / 8) * 8 + n.val % 8 = g.val * 11008 + n.val
    omega
  have e3 : broadcastInDim S32x1376x8 ![0, 1, 2] bcast_S32x1376x1_S32x1376x8_0_1_2
      (broadcastInDim S32x1376x1 ![0, 1] bcast_S32x1376_S32x1376x1_0_1 qz) (ix3 g (colOf n) (subOf n)) = qz (ix2 g (colOf n)) :=
    (broadcastInDim_apply _ bcast_S32x1376x1_S32x1376x8_0_1_2 _ (ix3 g (colOf n) (subOf n)) (ix3 g (colOf n) (0 : Fin 1))
      (fun a => match a with | ⟨0, _⟩ => rfl | ⟨1, _⟩ => rfl | ⟨2, _⟩ => rfl)).trans
    (broadcastInDim_apply _ bcast_S32x1376_S32x1376x1_0_1 qz (ix3 g (colOf n) (0 : Fin 1)) (ix2 g (colOf n))
      (fun a => match a with | ⟨0, _⟩ => rfl | ⟨1, _⟩ => rfl))
  have e4 : broadcastInDim S32x1376x8 ![0, 1, 2] bcast_S1x1x8_S32x1376x8_0_1_2
      (broadcastInDim S1x1x8 ![2] bcast_S8_S1x1x8_2 (fun i : S8.Idx => lit0 (S8.rowMajor i))) (ix3 g (colOf n) (subOf n))
        = shiftOf (subOf n) := by
    refine (broadcastInDim_apply _ bcast_S1x1x8_S32x1376x8_0_1_2 _ (ix3 g (colOf n) (subOf n)) (ix3 (0 : Fin 1) (0 : Fin 1) (subOf n))
      (fun a => match a with | ⟨0, _⟩ => rfl | ⟨1, _⟩ => rfl | ⟨2, _⟩ => rfl)).trans ?_
    refine (broadcastInDim_apply _ bcast_S8_S1x1x8_2 _ (ix3 (0 : Fin 1) (0 : Fin 1) (subOf n)) (ix1 (subOf n))
      (fun a => match a with | ⟨0, _⟩ => rfl)).trans ?_
    show lit0 (S8.rowMajor (ix1 (subOf n))) = _
    have hr : S8.rowMajor (ix1 (subOf n)) = subOf n := Fin.ext (Shape.rowMajor_val_one _)
    rw [hr]
    exact lit0_eq_shiftOf _
  show IntOp.andi (IntOp.shrsi .host _ _) 15#32 = _
  rw [e3, e4]
  unfold IntOp.andi IntOp.shrsi nib
  rw [if_pos (shiftOf_lt _)]

/-- A field-major position's column lies in the packed word and field the position names. -/
theorem colOf_unperm (mm : Fin 11008) : colOf (unperm mm) = pcol mm := by
  apply Fin.ext
  show (mm.val % 1376 * 8 + mm.val / 1376) / 8 = mm.val % 1376
  have := mm.isLt
  omega
theorem subOf_unperm (mm : Fin 11008) : subOf (unperm mm) = psub mm := by
  apply Fin.ext
  show (mm.val % 1376 * 8 + mm.val / 1376) % 8 = mm.val / 1376
  have := mm.isLt
  omega

/-- The zero points times the scales, in field-major order, with a unit middle axis. -/
theorem V_v22_eq : (V m c main_v22 : S32x1x11008.Idx → EReal) =
    shapeCast S32x1x11008 (shapeCast S32x11008 (transpose S32x8x1376 [0, 2, 1] (shapeCast S32x1376x8
      (mulf (sitofp (F := Ideal) .f32 (zfields (m ((c : Thread nD τ).loc main_arg2))))
        (m ((c : Thread nD τ).loc main_arg3) : FVec Ideal S32x11008 .f32) : FVec Ideal S32x11008 .f32)
      shapeCasts_S32x11008_S32x1376x8) transposes_S32x1376x8_S32x8x1376_0_2_1) shapeCasts_S32x8x1376_S32x11008) shapeCasts_S32x11008_S32x1x11008 := by
  show StableHlo.after hostOps0 (fun b => m (c, b)) (Proc.devRef .tc main_v22) = _
  after_results
  rfl

theorem V_v22_apply (g : Fin 32) (mm : Fin 11008) : (V m c main_v22 : S32x1x11008.Idx → EReal) (ix3 g (0 : Fin 1) mm)
    = nibR (m ((c : Thread nD τ).loc main_arg2) (ix2 g (pcol mm))) (psub mm) * m ((c : Thread nD τ).loc main_arg3) (ix2 g (unperm mm)) := by
  rw [V_v22_eq]
  refine (addMiddleUnit_apply _ shapeCasts_S32x11008_S32x1x11008 g 0 mm).trans ?_
  refine (fieldMajor_apply _ shapeCasts_S32x11008_S32x1376x8 transposes_S32x1376x8_S32x8x1376_0_2_1 shapeCasts_S32x8x1376_S32x11008 g mm).trans ?_
  rw [mulf_apply, sitofp_apply, zfields_apply, colOf_unperm, subOf_unperm]
  rfl

/-! ## The windows' blocks -/

/-- Row `r` of the block at point `t` is row `1024 t + r` of the array. -/
def rowAt (t : Fin cfg0.N) (r : Fin 1024) : Fin 4096 := ⟨1024 * t.val + r.val, by have := Nat.lt_of_lt_of_eq t.isLt (show cfg0.N = 4 from N_0); have := r.isLt; omega⟩
/-- Group `g` of the block at point `t` is group `8 t + g` of the array. -/
def grpAt (t : Fin cfg0.N) (g : Fin 8) : Fin 32 := ⟨8 * t.val + g.val, by have := Nat.lt_of_lt_of_eq t.isLt (show cfg0.N = 4 from N_0); have := g.isLt; omega⟩

/-- The activations' block at point `t`: all 64 rows, columns `1024 t` to `1024 t + 1023`. -/
theorem iblk0_apply (t : Fin cfg0.N) (b : Fin 64) (r : Fin 1024) :
    (iblk m c 0 t : S64x1024.Idx → EReal) (ix2 b r) = (V m c main_v0 : S64x4096.Idx → EReal) (ix2 b (rowAt t r)) := by
  have hi : ∀ t : Fin cfg0.N, win0_0.index t 0 = 0 ∧ win0_0.index t 1 = t.val := (by decide +kernel : ∀ t : Fin grid0.N, _)
  unfold iblk
  rw [View.read_apply]
  show V m c main_v0 _ = V m c main_v0 _
  congr 1
  funext a
  apply Fin.ext
  match a with
  | ⟨0, _⟩ => show win0_0.index t 0 * 64 + 1 * b.val = b.val; rw [(hi t).1]; omega
  | ⟨1, _⟩ => show win0_0.index t 1 * 1024 + 1 * r.val = 1024 * t.val + r.val; rw [(hi t).2]; omega

/-- The packed weights' block at point `t`: rows `1024 t` to `1024 t + 1023`, all 1376 words. -/
theorem iblk1_apply (t : Fin cfg0.N) (r : Fin 1024) (cc : Fin 1376) :
    (iblk m c 1 t : S1024x1376.Idx → BitVec 32) (ix2 r cc) = m ((c : Thread nD τ).loc main_arg1) (ix2 (rowAt t r) cc) := by
  have hi : ∀ t : Fin cfg0.N, win0_1.index t 0 = t.val ∧ win0_1.index t 1 = 0 := (by decide +kernel : ∀ t : Fin grid0.N, _)
  unfold iblk
  rw [View.read_apply]
  show V m c main_arg1 _ = m ((c : Thread nD τ).loc main_arg1) _
  rw [V_main_arg1]
  congr 1
  funext a
  apply Fin.ext
  match a with
  | ⟨0, _⟩ => show win0_1.index t 0 * 1024 + 1 * r.val = 1024 * t.val + r.val; rw [(hi t).1]; omega
  | ⟨1, _⟩ => show win0_1.index t 1 * 1376 + 1 * cc.val = cc.val; rw [(hi t).2]; omega

/-- The scales' block at point `t`: groups `8 t` to `8 t + 7`, every position. -/
theorem iblk2_apply (t : Fin cfg0.N) (g : Fin 8) (mm : Fin 11008) :
    (iblk m c 2 t : S8x1x11008.Idx → EReal) (ix3 g (0 : Fin 1) mm) = (V m c main_v21 : S32x1x11008.Idx → EReal) (ix3 (grpAt t g) (0 : Fin 1) mm) := by
  have hi : ∀ t : Fin cfg0.N, win0_2.index t 0 = t.val ∧ win0_2.index t 1 = 0 ∧ win0_2.index t 2 = 0 := (by decide +kernel : ∀ t : Fin grid0.N, _)
  unfold iblk
  rw [View.read_apply]
  show V m c main_v21 _ = V m c main_v21 _
  congr 1
  funext a
  apply Fin.ext
  match a with
  | ⟨0, _⟩ => show win0_2.index t 0 * 8 + 1 * g.val = 8 * t.val + g.val; rw [(hi t).1]; omega
  | ⟨1, _⟩ => show win0_2.index t 1 * 1 + 1 * 0 = 0; rw [(hi t).2.1]
  | ⟨2, _⟩ => show win0_2.index t 2 * 11008 + 1 * mm.val = mm.val; rw [(hi t).2.2]; omega

/-- The scaled zero points' block at point `t`: groups `8 t` to `8 t + 7`, every position. -/
theorem iblk3_apply (t : Fin cfg0.N) (g : Fin 8) (mm : Fin 11008) :
    (iblk m c 3 t : S8x1x11008.Idx → EReal) (ix3 g (0 : Fin 1) mm) = (V m c main_v22 : S32x1x11008.Idx → EReal) (ix3 (grpAt t g) (0 : Fin 1) mm) := by
  have hi : ∀ t : Fin cfg0.N, win0_3.index t 0 = t.val ∧ win0_3.index t 1 = 0 ∧ win0_3.index t 2 = 0 := (by decide +kernel : ∀ t : Fin grid0.N, _)
  unfold iblk
  rw [View.read_apply]
  show V m c main_v22 _ = V m c main_v22 _
  congr 1
  funext a
  apply Fin.ext
  match a with
  | ⟨0, _⟩ => show win0_3.index t 0 * 8 + 1 * g.val = 8 * t.val + g.val; rw [(hi t).1]; omega
  | ⟨1, _⟩ => show win0_3.index t 1 * 1 + 1 * 0 = 0; rw [(hi t).2.1]
  | ⟨2, _⟩ => show win0_3.index t 2 * 11008 + 1 * mm.val = mm.val; rw [(hi t).2.2]; omega

/-- The bias row's block is the whole row at every point. -/
theorem iblk4_apply (t : Fin cfg0.N) (mm : Fin 11008) :
    (iblk m c 4 t : S1x11008.Idx → EReal) (ix2 (0 : Fin 1) mm) = (V m c main_v20 : S1x11008.Idx → EReal) (ix2 (0 : Fin 1) mm) := by
  have hi : ∀ t : Fin cfg0.N, win0_4.index t 0 = 0 ∧ win0_4.index t 1 = 0 := (by decide +kernel : ∀ t : Fin grid0.N, _)
  unfold iblk
  rw [View.read_apply]
  show V m c main_v20 _ = V m c main_v20 _
  congr 1
  funext a
  apply Fin.ext
  match a with
  | ⟨0, _⟩ => show win0_4.index t 0 * 1 + 1 * 0 = 0; rw [(hi t).1]
  | ⟨1, _⟩ => show win0_4.index t 1 * 11008 + 1 * mm.val = mm.val; rw [(hi t).2]; omega

/-! ## After the call -/

/-- The three operations after the call, on whatever the call left in its result array. -/
theorem tail_v26_eq (dats : (p : Fin 1) → (c : Dev nD) → Dat τ (Elt Ideal) Unit ℕ (UR sig nD τ) ℕ (cfgs p) c) :
    (Pipeline.afterTail₀ cfgs dats 0 (V0 m) [hostOps1] c main_v26 : S64x11008.Idx → EReal)
      = shapeCast S64x11008 (transpose S64x1376x8 [0, 2, 1] (shapeCast S64x8x1376 ((dats 0 c).arrAt 5 cfg0.N : S64x11008.Idx → EReal)
          shapeCasts_S64x11008_S64x8x1376) transposes_S64x8x1376_S64x1376x8_0_2_1) shapeCasts_S64x1376x8_S64x11008 := by
  have hw : Pipeline.withArrays (cfgs 0).spec c (V0 m c) (fun w => (dats 0 c).arrAt w (cfgs 0).N) (Proc.devRef .tc main_v23)
      = (dats 0 c).arrAt 5 cfg0.N := Pipeline.withArrays_arr spec0 launch0.win.arr_inj c _ _ 5
  unfold Pipeline.afterTail₀
  show StableHlo.after hostOps1 _ (Proc.devRef .tc main_v26) = _
  after_results
  rw [hw]
  rfl

/-- The program's result at column `n` is the call's result array at position `(n % 8) · 1376 + n / 8`. -/
theorem tail_v26_apply (dats : (p : Fin 1) → (c : Dev nD) → Dat τ (Elt Ideal) Unit ℕ (UR sig nD τ) ℕ (cfgs p) c) (b : Fin 64) (n : Fin 11008) :
    (Pipeline.afterTail₀ cfgs dats 0 (V0 m) [hostOps1] c main_v26 : S64x11008.Idx → EReal) (ix2 b n)
      = ((dats 0 c).arrAt 5 cfg0.N : S64x11008.Idx → EReal) (ix2 b (perm n)) := by
  rw [tail_v26_eq]
  exact columnOrder_apply _ shapeCasts_S64x11008_S64x8x1376 transposes_S64x8x1376_S64x1376x8_0_2_1 shapeCasts_S64x1376x8_S64x11008 b n

end Cert.KernelIdeal.Host

end
-- ==== Proof.LibBlockSum.lean ====
/-
  A sum over n·b terms taken block by block, and an accumulator that adds one block's sum per step.

  Position t·b + r is the r-th term of block t. Over a commutative monoid the sum of all n·b terms is the sum over the
  blocks of each block's sum: this is only a re-indexing of the positions by (block, place in block). An accumulator
  that holds 0 + g 0 after step 0 and adds g (k+1) at step k+1 holds g 0 + … + g k after step k; with g t the sum of
  block t, after the last step it holds the sum of all terms.
-/
import Mathlib.Algebra.BigOperators.Fin
import Mathlib.Logic.Equiv.Fin.Basic

namespace Cert.BlockSum

open scoped BigOperators

variable {M : Type*} [AddCommMonoid M]

/-- Among `N = n * b` positions, the one of block `t` at place `r`: `t * b + r`. -/
def pos {N : ℕ} (n b : ℕ) (h : N = n * b) (t : Fin n) (r : Fin b) : Fin N :=
  ⟨t.val * b + r.val, by
    subst h
    calc t.val * b + r.val < t.val * b + b := Nat.add_lt_add_left r.isLt _
      _ = (t.val + 1) * b := (Nat.succ_mul _ _).symm
      _ ≤ n * b := Nat.mul_le_mul_right _ t.isLt⟩

@[simp] theorem pos_val {N : ℕ} (n b : ℕ) (h : N = n * b) (t : Fin n) (r : Fin b) :
    (pos n b h t r).val = t.val * b + r.val := rfl

/-- The sum of all terms is the sum over the blocks of each block's sum. -/
theorem sum_blocks {N : ℕ} (n b : ℕ) (h : N = n * b) (f : Fin N → M) :
    ∑ i : Fin N, f i = ∑ t : Fin n, ∑ r : Fin b, f (pos n b h t r) := by
  subst h
  rw [← Fintype.sum_prod_type']
  refine (Fintype.sum_equiv finProdFinEquiv _ _ fun x => ?_).symm
  congr 1
  apply Fin.ext
  show x.1.val * b + x.2.val = x.2.val + b * x.1.val
  rw [Nat.mul_comm, Nat.add_comm]

/-- An accumulator that holds `0 + g 0` after step 0 and adds `g (k + 1)` at step `k + 1` holds, after step `k`,
    the sum of `g 0, …, g k`. -/
theorem chain_eq_sum (N : ℕ) (a g : (k : ℕ) → k < N → M)
    (h0 : ∀ h, a 0 h = 0 + g 0 h)
    (hs : ∀ (k : ℕ) (h : k + 1 < N), a (k + 1) h = a k (Nat.lt_of_succ_lt h) + g (k + 1) h) :
    ∀ (k : ℕ) (h : k < N), a k h = ∑ t : Fin (k + 1), g t.val (Nat.lt_of_lt_of_le t.isLt h)
  | 0, h => by
    rw [h0, zero_add, Fin.sum_univ_castSucc, Fin.sum_univ_zero, zero_add]
    rfl
  | k + 1, h => by
    rw [hs, chain_eq_sum N a g h0 hs k, Fin.sum_univ_castSucc (n := k + 1)]
    rfl

/-- After its last step the accumulator holds the sum of all the `g t`. -/
theorem chain_last (n : ℕ) (a g : (k : ℕ) → k < n + 1 → M)
    (h0 : ∀ h, a 0 h = 0 + g 0 h)
    (hs : ∀ (k : ℕ) (h : k + 1 < n + 1), a (k + 1) h = a k (Nat.lt_of_succ_lt h) + g (k + 1) h) :
    a n (Nat.lt_succ_self n) = ∑ t : Fin (n + 1), g t.val t.isLt :=
  chain_eq_sum (n + 1) a g h0 hs n (Nat.lt_succ_self n)

/-- An accumulator that adds block `t`'s sum at step `t`, starting from `0`, holds after the last of the `n + 1`
    steps the sum of all `(n + 1) * b` terms. -/
theorem chain_blocks_eq_sum {N : ℕ} (n b : ℕ) (hN : N = (n + 1) * b) (f : Fin N → M)
    (a : (k : ℕ) → k < n + 1 → M)
    (h0 : ∀ h, a 0 h = 0 + ∑ r : Fin b, f (pos (n + 1) b hN ⟨0, h⟩ r))
    (hs : ∀ (k : ℕ) (h : k + 1 < n + 1),
      a (k + 1) h = a k (Nat.lt_of_succ_lt h) + ∑ r : Fin b, f (pos (n + 1) b hN ⟨k + 1, h⟩ r)) :
    a n (Nat.lt_succ_self n) = ∑ i : Fin N, f i := by
  rw [sum_blocks (n + 1) b hN f]
  exact chain_last n a (fun k hk => ∑ r : Fin b, f (pos (n + 1) b hN ⟨k, hk⟩ r)) h0 hs

end Cert.BlockSum
-- ==== Proof.KIdx.lean ====
/-
  The kernel's value.  Read at an index, one grid step adds to the output block the contributions of its eight groups
  (the trips of its loop over the step's tiles); the four steps therefore add the thirty-two groups' contributions to
  the zero block, the last one adds the bias, and the block is the call's result array.  The three host operations
  after the call only put the field-major positions back in column order.  So every run of the kernel's program ends
  with the result at `Cert.Awq.K` of the argument arrays, the arguments unchanged.
-/
import proofs.«427614_j45208825758173_3_alg».proof.Proof.KGrid
import proofs.«427614_j45208825758173_3_alg».proof.Proof.KPay
import proofs.«427614_j45208825758173_3_alg».proof.Proof.KHost
import proofs.«427614_j45208825758173_3_alg».proof.Proof.Spec
import proofs.«427614_j45208825758173_3_alg».proof.Proof.LibBlockSum
import Idealize.ShloMosaic.Lib.Pipeline.Value
import Idealize.ShloMosaic.Lib.ValueIdx

set_option maxRecDepth 16384

noncomputable section

namespace Cert.KernelIdeal.Idx

open Cert.KernelIdeal Cert.KernelIdeal.Gen Cert.KernelIdeal.GenP Cert.KernelIdeal.Trip Cert.KernelIdeal.Grid
open Cert.KernelIdeal.Pay Cert.KernelIdeal.Host Cert.Awq
open Idealize.ShloMosaic Idealize.ShloMosaic.TcCoe Idealize.ShloMosaic.ValueIdx Idealize.SL.Sem
open Idealize.ShloMosaic.Pipeline (Dat)

/-- One group's contribution, over the blocks a grid step is handed. -/
def D (x0 : Vec Ideal S64x1024 .bf16) (x1 : Vec Ideal S1024x1376 .i32) (x2 x3 : Vec Ideal S8x1x11008 .f32)
    (b : Fin 64) (mm : Fin 11008) (k : Fin k0_t1_loop.trips) : EReal :=
  x2 (ix3 (grpOf k) (0 : Fin 1) mm) * (∑ j : Fin 128, x0 (ix2 b (rowOf k j)) * nibR (x1 (ix2 (rowOf k j) (pcol mm))) (psub mm))
    - (∑ j : Fin 128, x0 (ix2 b (rowOf k j))) * x3 (ix3 (grpOf k) (0 : Fin 1) mm)

/-- After `k` groups the block holds what it held plus the first `k` groups' contributions. -/
theorem loopVal_apply (x0 : Vec Ideal S64x1024 .bf16) (x1 : Vec Ideal S1024x1376 .i32) (x2 x3 : Vec Ideal S8x1x11008 .f32)
    (acc0 : Vec Ideal S64x11008 .f32) (b : Fin 64) (mm : Fin 11008) : ∀ (k : ℕ) (hk : k ≤ k0_t1_loop.trips),
    loopVal (F := Ideal) x0 x1 x2 x3 acc0 k (ix2 b mm)
      = acc0 (ix2 b mm) + ∑ g : Fin k, D x0 x1 x2 x3 b mm ⟨g.val, lt_of_lt_of_le g.isLt hk⟩
  | 0, _ => by rw [loopVal, Fin.sum_univ_zero, add_zero]
  | k + 1, hk => by
    have hlt : k < k0_t1_loop.trips := hk
    rw [loopVal, dif_pos hlt, tripVal_apply, loopVal_apply x0 x1 x2 x3 acc0 b mm k (Nat.le_of_lt hlt), add_assoc]
    exact congrArg (acc0 (ix2 b mm) + ·)
      (Fin.sum_univ_castSucc (fun g : Fin (k + 1) => D x0 x1 x2 x3 b mm ⟨g.val, lt_of_lt_of_le g.isLt hk⟩)).symm

section
variable (m : (ℓ : Loc nD τ sig) → Buf (Elt Ideal) ℓ) (c : Dev nD)

/-- The argument arrays as plain functions of their indices. -/
abbrev ax : SX.Idx → EReal := m ((c : Thread nD τ).loc main_arg0)
abbrev aq : SQ.Idx → BitVec 32 := m ((c : Thread nD τ).loc main_arg1)
abbrev az : SZ.Idx → BitVec 32 := m ((c : Thread nD τ).loc main_arg2)
abbrev asc : SS.Idx → EReal := m ((c : Thread nD τ).loc main_arg3)
abbrev ab : SB.Idx → EReal := m ((c : Thread nD τ).loc main_arg4)

/-- Over the blocks of grid step `t`, trip `k`'s contribution is group `8 t + k`'s: the step's tiles are rows
    `1024 t …` of the activations and weights and rows `8 t …` of the scale and zero-point tables. -/
theorem D_eq_corr (t : Fin cfg0.N) (b : Fin 64) (mm : Fin 11008) (k : Fin k0_t1_loop.trips) :
    D (xb m c t) (qb m c t) (sb m c t) (zb m c t) b mm k
      = corr (ax m c) (aq m c) (az m c) (asc m c) b mm (grpAt t (grpOf k)) := by
  have e0 : ∀ j : Fin 128, (xb m c t : S64x1024.Idx → EReal) (ix2 b (rowOf k j)) = ax m c (ix2 b (kOf (grpAt t (grpOf k)) j)) := fun j =>
    ((iblk0_apply m c t b (rowOf k j)).trans (V_v0_apply m c b _)).trans
      (congrArg (fun q => ax m c (ix2 b q)) (Fin.ext (by
        show 1024 * t.val + (128 * k.val + j.val) = 128 * (8 * t.val + k.val) + j.val; omega)))
  have e1 : ∀ j : Fin 128, (qb m c t : S1024x1376.Idx → BitVec 32) (ix2 (rowOf k j) (pcol mm))
      = aq m c (ix2 (kOf (grpAt t (grpOf k)) j) (pcol mm)) := fun j =>
    (iblk1_apply m c t (rowOf k j) (pcol mm)).trans
      (congrArg (fun q => aq m c (ix2 q (pcol mm))) (Fin.ext (by
        show 1024 * t.val + (128 * k.val + j.val) = 128 * (8 * t.val + k.val) + j.val; omega)))
  have e2 : (sb m c t : S8x1x11008.Idx → EReal) (ix3 (grpOf k) (0 : Fin 1) mm) = asc m c (ix2 (grpAt t (grpOf k)) (unperm mm)) :=
    (iblk2_apply m c t (grpOf k) mm).trans (V_v21_apply m c _ mm)
  have e3 : (zb m c t : S8x1x11008.Idx → EReal) (ix3 (grpOf k) (0 : Fin 1) mm)
      = nibR (az m c (ix2 (grpAt t (grpOf k)) (pcol mm))) (psub mm) * asc m c (ix2 (grpAt t (grpOf k)) (unperm mm)) :=
    (iblk3_apply m c t (grpOf k) mm).trans (V_v22_apply m c _ mm)
  unfold D corr
  rw [e2, e3]
  simp only [e0, e1]

/-- A grid step adds its eight groups' contributions to the block. -/
theorem stepAt_apply (t : Fin cfg0.N) (acc : Vec Ideal S64x11008 .f32) (b : Fin 64) (mm : Fin 11008) :
    stepAt m c t acc (ix2 b mm)
      = acc (ix2 b mm) + ∑ g : Fin 8, corr (ax m c) (aq m c) (az m c) (asc m c) b mm (grpAt t g) := by
  unfold stepAt
  rw [loopVal_apply _ _ _ _ acc b mm 8 (by rw [trips_eq])]
  exact congrArg (acc (ix2 b mm) + ·) (Finset.sum_congr rfl fun g _ => D_eq_corr m c t b mm _)

theorem chain3 (h : 3 < cfg0.N) : chainAt m c 3 h
    = k0_pay3 (stepAt m c ⟨3, h⟩ (stepAt m c ⟨2, Nat.lt_of_succ_lt h⟩ (stepAt m c ⟨1, Nat.lt_of_succ_lt (Nat.lt_of_succ_lt h)⟩
        (stepAt m c ⟨0, Nat.lt_of_succ_lt (Nat.lt_of_succ_lt (Nat.lt_of_succ_lt h))⟩ (k0_pay1 (F := Ideal))))))
      (bb m c ⟨3, h⟩) := rfl

theorem grpAt_eq_pos (t : Fin cfg0.N) (t' : Fin 4) (h : t.val = t'.val) (g : Fin 8) :
    grpAt t g = Cert.BlockSum.pos 4 8 rfl t' g :=
  Fin.ext (by show 8 * t.val + g.val = t'.val * 8 + g.val; rw [h]; omega)

/-- The call's result array, in field-major order, is the sum of the thirty-two groups' contributions plus the bias. -/
theorem result_apply (b : Fin 64) (mm : Fin 11008) :
    (result m c : S64x11008.Idx → EReal) (ix2 b mm)
      = Kperm (ax m c) (aq m c) (az m c) (asc m c) (ab m c) (ix2 b mm) := by
  show chainAt m c 3 _ (ix2 b mm) = _
  rw [chain3, pay3_apply, stepAt_apply, stepAt_apply, stepAt_apply, stepAt_apply, pay1_apply, zero_add]
  rw [show (bb m c ⟨3, _⟩ : S1x11008.Idx → EReal) (ix2 (0 : Fin 1) mm) = ab m c (ix1 (unperm mm)) from
    (iblk4_apply m c _ mm).trans (V_v20_apply m c mm)]
  show _ = (∑ Gi : Fin 32, corr (ax m c) (aq m c) (az m c) (asc m c) b mm Gi) + ab m c (ix1 (unperm mm))
  have e : ∀ (t : Fin cfg0.N) (t' : Fin 4), t.val = t'.val →
      (∑ g : Fin 8, corr (ax m c) (aq m c) (az m c) (asc m c) b mm (grpAt t g))
        = ∑ r : Fin 8, corr (ax m c) (aq m c) (az m c) (asc m c) b mm (Cert.BlockSum.pos 4 8 rfl t' r) :=
    fun t t' h => Finset.sum_congr rfl fun g _ => by rw [grpAt_eq_pos t t' h g]
  rw [Cert.BlockSum.sum_blocks 4 8 rfl, Fin.sum_univ_four, e ⟨0, _⟩ 0 rfl, e ⟨1, _⟩ 1 rfl, e ⟨2, _⟩ 2 rfl, e ⟨3, _⟩ 3 rfl]

end

/-- Every weakly fair execution of the kernel's program ends with the result at `K` of the arguments, which are unchanged:
    the frame's run, its result array read by `result_apply`, the tail's re-ordering, and the arguments as the frame
    leaves them. -/
theorem krun (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v26) = K (ax m c) (aq m c) (az m c) (asc m c) (ab m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v26 (Pipeline.mem_restRefs_of main_v26 (by decide) (by decide))).trans (funext fun j => by
        obtain ⟨p, q, rfl⟩ : ∃ (p : Fin 64) (q : Fin 11008), j = ix2 p q := ⟨j 0, j 1, eq_ix2 j⟩
        refine (tail_v26_apply m c (dats m) p q).trans ?_
        rw [final_o]
        exact result_apply m c p (perm q)),
      (((h c).2 main_arg0 (Pipeline.mem_restRefs_of main_arg0 (by decide) (by decide))).trans (W_main_arg0 m (dats m) c)),
      ((h c).1 1).trans (((dats m 0 c).arrAt_in 1 rfl _).trans ((A_eq m c 1).trans (V_main_arg1 m c))),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c))⟩)
    (run_main m ρ)

end Cert.KernelIdeal.Idx

end
-- ==== Proof.RefRun.lean ====
/-
  The reference program's run, read back.  The program is thirty straight-line host operations; run from any memory,
  every execution ends with the result buffer holding the operations' composed pure term of the five arguments'
  launch contents, and the arguments unchanged.  The composed term is named in pieces, so that its value can be read
  piece by piece afterwards:

    * the table of eight shifts, one per field of a packed word;
    * unpacking a matrix of packed words: every word is repeated along a new last axis of length eight, shifted right
      by the table's entry for that position, masked to its low four bits, and the last two axes are flattened;
    * repeating each row of a 32-row matrix 128 times: a new middle axis of length 128, then the first two axes
      flattened;
    * the weight: (unpacked words − repeated unpacked zeros) read as a number, times the repeated scales;
    * the result: the contraction of x with the weight over the 4096 rows, plus the bias repeated along the batch axis.
-/
import proofs.«427614_j45208825758173_3_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The eight shifts, as the program's constant holds them. -/
def shifts : IVec S8 32 := fun i => lit0 (S8.rowMajor i)

/-- The unpacked weight words: entry (k, 8·c + s) is field s of word (k, c). -/
def unpackW (qw : IVec S4096x1376 32) : IVec S4096x11008 32 :=
  shapeCast S4096x11008
    (andi
      (Host.shrsi
        (broadcastInDim S4096x1376x8 ![0, 1, 2] bcast_S4096x1376x1_S4096x1376x8_0_1_2
          (broadcastInDim S4096x1376x1 ![0, 1] bcast_S4096x1376_S4096x1376x1_0_1 qw))
        (broadcastInDim S4096x1376x8 ![0, 1, 2] bcast_S1x1x8_S4096x1376x8_0_1_2
          (broadcastInDim S1x1x8 ![2] bcast_S8_S1x1x8_2 shifts)))
      (broadcastInDim S4096x1376x8 ![] bcast_S_S4096x1376x8 (constantI S_ 32 15#32)))
    shapeCasts_S4096x1376x8_S4096x11008

/-- The unpacked zero words: entry (g, 8·c + s) is field s of word (g, c). -/
def unpackZ (qz : IVec S32x1376 32) : IVec S32x11008 32 :=
  shapeCast S32x11008
    (andi
      (Host.shrsi
        (broadcastInDim S32x1376x8 ![0, 1, 2] bcast_S32x1376x1_S32x1376x8_0_1_2
          (broadcastInDim S32x1376x1 ![0, 1] bcast_S32x1376_S32x1376x1_0_1 qz))
        (broadcastInDim S32x1376x8 ![0, 1, 2] bcast_S1x1x8_S32x1376x8_0_1_2
          (broadcastInDim S1x1x8 ![2] bcast_S8_S1x1x8_2 shifts)))
      (broadcastInDim S32x1376x8 ![] bcast_S_S32x1376x8 (constantI S_ 32 15#32)))
    shapeCasts_S32x1376x8_S32x11008

/-- Every row of a 32-row matrix repeated 128 times in place: row k of the result is row k / 128 of the argument. -/
def rep {α : Type} (a : S32x11008.Idx → α) : S4096x11008.Idx → α :=
  shapeCast S4096x11008 (broadcastInDim S32x128x11008 ![0, 2] bcast_S32x11008_S32x128x11008_0_2 a)
    shapeCasts_S32x128x11008_S4096x11008

/-- The dequantised weight. -/
def weight (qw : IVec S4096x1376 32) (qz : IVec S32x1376 32) (sc : FVec F S32x11008 .f32) : FVec F S4096x11008 .f32 :=
  mulf (sitofp (F := F) .f32 (subi (unpackW qw) (rep (unpackZ qz)))) (rep sc)

/-- The bias repeated along the batch axis. -/
def biasFull (bias : FVec F S11008 .f32) : FVec F S64x11008 .f32 :=
  broadcastInDim S64x11008 ![0, 1] bcast_S1x11008_S64x11008_0_1 (broadcastInDim S1x11008 ![1] bcast_S11008_S1x11008_1 bias)

/-- The operations' composed term. -/
def refTerm (x : FVec F S64x4096 .f32) (qw : IVec S4096x1376 32) (qz : IVec S32x1376 32) (sc : FVec F S32x11008 .f32)
    (bias : FVec F S11008 .f32) : FVec F S64x11008 .f32 :=
  addf (Host.dotGeneral dot_S64x4096_S4096x11008_S64x11008_1_0_0_1_n_n none x (weight qw qz sc)) (biasFull bias)

/-- The program's thirty operations, in order. -/
abbrev ops : List (HloOp τ sig (Elt F)) :=
  [ nullary main_c (fun i => lit0 (S8.rowMajor i)),
    unary main_arg1 main_v0 (broadcastInDim S4096x1376x1 ![0, 1] bcast_S4096x1376_S4096x1376x1_0_1 : (⟨S4096x1376, .i32⟩ : BufTy).Contents (Elt F) → (⟨S4096x1376x1, .i32⟩ : BufTy).Contents (Elt F)),
    unary main_c main_v1 (broadcastInDim S1x1x8 ![2] bcast_S8_S1x1x8_2 : (⟨S8, .i32⟩ : BufTy).Contents (Elt F) → (⟨S1x1x8, .i32⟩ : BufTy).Contents (Elt F)),
    unary main_v0 main_v2 (broadcastInDim S4096x1376x8 ![0, 1, 2] bcast_S4096x1376x1_S4096x1376x8_0_1_2 : (⟨S4096x1376x1, .i32⟩ : BufTy).Contents (Elt F) → (⟨S4096x1376x8, .i32⟩ : BufTy).Contents (Elt F)),
    unary main_v1 main_v3 (broadcastInDim S4096x1376x8 ![0, 1, 2] bcast_S1x1x8_S4096x1376x8_0_1_2 : (⟨S1x1x8, .i32⟩ : BufTy).Contents (Elt F) → (⟨S4096x1376x8, .i32⟩ : BufTy).Contents (Elt F)),
    binary main_v2 main_v3 main_v4 (Host.shrsi : (⟨S4096x1376x8, .i32⟩ : BufTy).Contents (Elt F) → (⟨S4096x1376x8, .i32⟩ : BufTy).Contents (Elt F) → (⟨S4096x1376x8, .i32⟩ : BufTy).Contents (Elt F)),
    nullary main_c_0 (constantI S_ 32 15#32),
    unary main_c_0 main_v5 (broadcastInDim S4096x1376x8 ![] bcast_S_S4096x1376x8 : (⟨S_, .i32⟩ : BufTy).Contents (Elt F) → (⟨S4096x1376x8, .i32⟩ : BufTy).Contents (Elt F)),
    binary main_v4 main_v5 main_v6 (andi : (⟨S4096x1376x8, .i32⟩ : BufTy).Contents (Elt F) → (⟨S4096x1376x8, .i32⟩ : BufTy).Contents (Elt F) → (⟨S4096x1376x8, .i32⟩ : BufTy).Contents (Elt F)),
    reshape main_v6 main_v7 rfl shapeCasts_S4096x1376x8_S4096x11008,
    unary main_arg2 main_v8 (broadcastInDim S32x1376x1 ![0, 1] bcast_S32x1376_S32x1376x1_0_1 : (⟨S32x1376, .i32⟩ : BufTy).Contents (Elt F) → (⟨S32x1376x1, .i32⟩ : BufTy).Contents (Elt F)),
    unary main_c main_v9 (broadcastInDim S1x1x8 ![2] bcast_S8_S1x1x8_2 : (⟨S8, .i32⟩ : BufTy).Contents (Elt F) → (⟨S1x1x8, .i32⟩ : BufTy).Contents (Elt F)),
    unary main_v8 main_v10 (broadcastInDim S32x1376x8 ![0, 1, 2] bcast_S32x1376x1_S32x1376x8_0_1_2 : (⟨S32x1376x1, .i32⟩ : BufTy).Contents (Elt F) → (⟨S32x1376x8, .i32⟩ : BufTy).Contents (Elt F)),
    unary main_v9 main_v11 (broadcastInDim S32x1376x8 ![0, 1, 2] bcast_S1x1x8_S32x1376x8_0_1_2 : (⟨S1x1x8, .i32⟩ : BufTy).Contents (Elt F) → (⟨S32x1376x8, .i32⟩ : BufTy).Contents (Elt F)),
    binary main_v10 main_v11 main_v12 (Host.shrsi : (⟨S32x1376x8, .i32⟩ : BufTy).Contents (Elt F) → (⟨S32x1376x8, .i32⟩ : BufTy).Contents (Elt F) → (⟨S32x1376x8, .i32⟩ : BufTy).Contents (Elt F)),
    nullary main_c_1 (constantI S_ 32 15#32),
    unary main_c_1 main_v13 (broadcastInDim S32x1376x8 ![] bcast_S_S32x1376x8 : (⟨S_, .i32⟩ : BufTy).Contents (Elt F) → (⟨S32x1376x8, .i32⟩ : BufTy).Contents (Elt F)),
    binary main_v12 main_v13 main_v14 (andi : (⟨S32x1376x8, .i32⟩ : BufTy).Contents (Elt F) → (⟨S32x1376x8, .i32⟩ : BufTy).Contents (Elt F) → (⟨S32x1376x8, .i32⟩ : BufTy).Contents (Elt F)),
    reshape main_v14 main_v15 rfl shapeCasts_S32x1376x8_S32x11008,
    unary main_v15 main_v16 (broadcastInDim S32x128x11008 ![0, 2] bcast_S32x11008_S32x128x11008_0_2 : (⟨S32x11008, .i32⟩ : BufTy).Contents (Elt F) → (⟨S32x128x11008, .i32⟩ : BufTy).Contents (Elt F)),
    reshape main_v16 main_v17 rfl shapeCasts_S32x128x11008_S4096x11008,
    unary main_arg3 main_v18 (broadcastInDim S32x128x11008 ![0, 2] bcast_S32x11008_S32x128x11008_0_2 : (⟨S32x11008, .f32⟩ : BufTy).Contents (Elt F) → (⟨S32x128x11008, .f32⟩ : BufTy).Contents (Elt F)),
    reshape main_v18 main_v19 rfl shapeCasts_S32x128x11008_S4096x11008,
    binary main_v7 main_v17 main_v20 (subi : (⟨S4096x11008, .i32⟩ : BufTy).Contents (Elt F) → (⟨S4096x11008, .i32⟩ : BufTy).Contents (Elt F) → (⟨S4096x11008, .i32⟩ : BufTy).Contents (Elt F)),
    unary main_v20 main_v21 (sitofp .f32 : (⟨S4096x11008, .i32⟩ : BufTy).Contents (Elt F) → (⟨S4096x11008, .f32⟩ : BufTy).Contents (Elt F)),
    binary main_v21 main_v19 main_v22 (mulf : (⟨S4096x11008, .f32⟩ : BufTy).Contents (Elt F) → (⟨S4096x11008, .f32⟩ : BufTy).Contents (Elt F) → (⟨S4096x11008, .f32⟩ : BufTy).Contents (Elt F)),
    binary main_arg0 main_v22 main_v23 ((fun l r => Host.dotGeneral dot_S64x4096_S4096x11008_S64x11008_1_0_0_1_n_n none l r) : (⟨S64x4096, .f32⟩ : BufTy).Contents (Elt F) → (⟨S4096x11008, .f32⟩ : BufTy).Contents (Elt F) → (⟨S64x11008, .f32⟩ : BufTy).Contents (Elt F)),
    unary main_arg4 main_v24 (broadcastInDim S1x11008 ![1] bcast_S11008_S1x11008_1 : (⟨S11008, .f32⟩ : BufTy).Contents (Elt F) → (⟨S1x11008, .f32⟩ : BufTy).Contents (Elt F)),
    unary main_v24 main_v25 (broadcastInDim S64x11008 ![0, 1] bcast_S1x11008_S64x11008_0_1 : (⟨S1x11008, .f32⟩ : BufTy).Contents (Elt F) → (⟨S64x11008, .f32⟩ : BufTy).Contents (Elt F)),
    binary main_v23 main_v25 main_v26 (addf : (⟨S64x11008, .f32⟩ : BufTy).Contents (Elt F) → (⟨S64x11008, .f32⟩ : BufTy).Contents (Elt F) → (⟨S64x11008, .f32⟩ : BufTy).Contents (Elt F)) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., unary_bufs_sub .., unary_bufs_sub .., unary_bufs_sub .., unary_bufs_sub .., binary_bufs_sub ..,
    nullary_bufs_sub .., unary_bufs_sub .., binary_bufs_sub .., reshape_bufs_sub ..,
    unary_bufs_sub .., unary_bufs_sub .., unary_bufs_sub .., unary_bufs_sub .., binary_bufs_sub ..,
    nullary_bufs_sub .., unary_bufs_sub .., binary_bufs_sub .., reshape_bufs_sub ..,
    unary_bufs_sub .., reshape_bufs_sub .., unary_bufs_sub .., reshape_bufs_sub ..,
    binary_bufs_sub .., unary_bufs_sub .., binary_bufs_sub .., binary_bufs_sub ..,
    unary_bufs_sub .., unary_bufs_sub .., binary_bufs_sub ..⟩

/-- On the one device, for any float values, from any memory with zero counters: every weakly fair execution of the
    program terminates with the result buffer at the composed term of the arguments' launch contents, and the five
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v26) = refTerm (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v26).trans (by after_results_simp <;> rfl),
      (h c main_arg0).trans (by after_results_simp),
      (h c main_arg1).trans (by after_results_simp),
      (h c main_arg2).trans (by after_results_simp),
      (h c main_arg3).trans (by after_results_simp),
      (h c main_arg4).trans (by after_results_simp)⟩)
    (run_seq scopedRefs_eq scopedSems_eq defs main (fun _ => ops) main_eq (fun _ => ops_sub) m ρ)

end Cert.ReferenceIdeal.RefRun

end
-- ==== Proof.RefValue.lean ====
/-
  The reference's composed term, read at an index, is the closed form G.

  At the result index (b, n) the last operation adds the bias, which the two broadcasts carry from position n of the
  bias vector; the contraction is the sum over the 4096 rows k of x[b,k] times the weight at (k, n).  The weight is a
  product of two readings:

    * the integer difference.  The unpacked matrix is the flattening of a [rows, 1376, 8] array whose entry (k, c, s)
      is field s of word (k, c); position n of a flattened row is c = n / 8, s = n % 8, because 8·c + s = n.  The
      shift the table holds for position s is the one the closed form names, and since every shift is below 32 the
      host's arithmetic shift is the plain one.  The zeros are unpacked the same way from 32 rows and then every row is
      repeated 128 times: row k of the repeated matrix is row k / 128, because in row-major order
      (128·g + r)·11008 + n is the position of (g, r, n) in a [32, 128, 11008] array.
    * the scale, repeated the same way.

  Over the extended reals a signed integer is read as the real it denotes, the product is the product and the sum the
  sum, so the term is G's body.
-/
import proofs.«427614_j45208825758173_3_alg».proof.Proof.RefRun
import proofs.«427614_j45208825758173_3_alg».proof.Proof.Spec
import Idealize.ShloMosaic.Lib.Pipeline.Value
import Idealize.ShloMosaic.Lib.ValueIdx
import Idealize.ShloMosaic.Lib.ValueLayout
import Idealize.ShloMosaic.Lib.IdealHost
import Idealize.ShloMosaic.Lib.StackMember
import Idealize.ShloMosaic.PureOps.Ideal.Laws

noncomputable section

namespace Cert.ReferenceIdeal.RefValue

open Cert.ReferenceIdeal Cert.ReferenceIdeal.Gen Cert.ReferenceIdeal.RefRun Cert.Awq
open Idealize.ShloMosaic Idealize.ShloMosaic.ValueIdx Idealize.ShloMosaic.Pipeline

/-! ## The shift table -/

/-- Position s of the program's table holds the shift of field s. -/
theorem shifts_apply (s : Fin 8) : shifts (ix1 s) = shiftOf s := by
  fin_cases s <;> rfl

/-- Every shift is below the word width, so the host's arithmetic shift right is the plain one. -/
theorem shrsi_shiftOf (q : BitVec 32) (s : Fin 8) : IntOp.shrsi .host q (shiftOf s) = q.sshiftRight' (shiftOf s) := by
  unfold IntOp.shrsi
  rw [if_pos]
  fin_cases s <;> decide

/-! ## Unpacking -/

/-- Entry (k, n) of the unpacked weight words is field n % 8 of word (k, n / 8). -/
theorem unpackW_apply (qw : IVec S4096x1376 32) (k : Fin 4096) (n : Fin 11008) :
    unpackW qw (ix2 k n) = nib (qw (ix2 k (colOf n))) (subOf n) := by
  unfold unpackW
  rw [shapeCast_apply _ _ (ix2 k n) (ix3 k (colOf n) (subOf n)) (by
    rw [Shape.rowMajor_val_three, Shape.rowMajor_val_two]
    show ((k.val * 1376 + n.val / 8) * 8 + n.val % 8) = k.val * 11008 + n.val
    omega)]
  show IntOp.andi (IntOp.shrsi .host
      (broadcastInDim S4096x1376x8 ![0, 1, 2] bcast_S4096x1376x1_S4096x1376x8_0_1_2
        (broadcastInDim S4096x1376x1 ![0, 1] bcast_S4096x1376_S4096x1376x1_0_1 qw) (ix3 k (colOf n) (subOf n)))
      (broadcastInDim S4096x1376x8 ![0, 1, 2] bcast_S1x1x8_S4096x1376x8_0_1_2
        (broadcastInDim S1x1x8 ![2] bcast_S8_S1x1x8_2 shifts) (ix3 k (colOf n) (subOf n))))
      (broadcastInDim S4096x1376x8 ![] bcast_S_S4096x1376x8 (constantI S_ 32 15#32) (ix3 k (colOf n) (subOf n))) = _
  rw [broadcastInDim_apply _ bcast_S4096x1376x1_S4096x1376x8_0_1_2 _ (ix3 k (colOf n) (subOf n)) (ix3 k (colOf n) 0)
      (fun a => by match a with | ⟨0, _⟩ => rfl | ⟨1, _⟩ => rfl | ⟨2, _⟩ => rfl),
    broadcastInDim_apply _ bcast_S4096x1376_S4096x1376x1_0_1 qw (ix3 k (colOf n) 0) (ix2 k (colOf n))
      (fun a => by match a with | ⟨0, _⟩ => rfl | ⟨1, _⟩ => rfl),
    broadcastInDim_apply _ bcast_S1x1x8_S4096x1376x8_0_1_2 _ (ix3 k (colOf n) (subOf n)) (ix3 0 0 (subOf n))
      (fun a => by match a with | ⟨0, _⟩ => rfl | ⟨1, _⟩ => rfl | ⟨2, _⟩ => rfl),
    broadcastInDim_apply _ bcast_S8_S1x1x8_2 shifts (ix3 0 0 (subOf n)) (ix1 (subOf n))
      (fun a => by match a with | ⟨0, _⟩ => rfl),
    broadcastInDim_scalar_apply, shifts_apply, shrsi_shiftOf]
  rfl

/-- Entry (g, n) of the unpacked zero words is field n % 8 of word (g, n / 8). -/
theorem unpackZ_apply (qz : IVec S32x1376 32) (g : Fin 32) (n : Fin 11008) :
    unpackZ qz (ix2 g n) = nib (qz (ix2 g (colOf n))) (subOf n) := by
  unfold unpackZ
  rw [shapeCast_apply _ _ (ix2 g n) (ix3 g (colOf n) (subOf n)) (by
    rw [Shape.rowMajor_val_three, Shape.rowMajor_val_two]
    show ((g.val * 1376 + n.val / 8) * 8 + n.val % 8) = g.val * 11008 + n.val
    omega)]
  show IntOp.andi (IntOp.shrsi .host
      (broadcastInDim S32x1376x8 ![0, 1, 2] bcast_S32x1376x1_S32x1376x8_0_1_2
        (broadcastInDim S32x1376x1 ![0, 1] bcast_S32x1376_S32x1376x1_0_1 qz) (ix3 g (colOf n) (subOf n)))
      (broadcastInDim S32x1376x8 ![0, 1, 2] bcast_S1x1x8_S32x1376x8_0_1_2
        (broadcastInDim S1x1x8 ![2] bcast_S8_S1x1x8_2 shifts) (ix3 g (colOf n) (subOf n))))
      (broadcastInDim S32x1376x8 ![] bcast_S_S32x1376x8 (constantI S_ 32 15#32) (ix3 g (colOf n) (subOf n))) = _
  rw [broadcastInDim_apply _ bcast_S32x1376x1_S32x1376x8_0_1_2 _ (ix3 g (colOf n) (subOf n)) (ix3 g (colOf n) 0)
      (fun a => by match a with | ⟨0, _⟩ => rfl | ⟨1, _⟩ => rfl | ⟨2, _⟩ => rfl),
    broadcastInDim_apply _ bcast_S32x1376_S32x1376x1_0_1 qz (ix3 g (colOf n) 0) (ix2 g (colOf n))
      (fun a => by match a with | ⟨0, _⟩ => rfl | ⟨1, _⟩ => rfl),
    broadcastInDim_apply _ bcast_S1x1x8_S32x1376x8_0_1_2 _ (ix3 g (colOf n) (subOf n)) (ix3 0 0 (subOf n))
      (fun a => by match a with | ⟨0, _⟩ => rfl | ⟨1, _⟩ => rfl | ⟨2, _⟩ => rfl),
    broadcastInDim_apply _ bcast_S8_S1x1x8_2 shifts (ix3 0 0 (subOf n)) (ix1 (subOf n))
      (fun a => by match a with | ⟨0, _⟩ => rfl),
    broadcastInDim_scalar_apply, shifts_apply, shrsi_shiftOf]
  rfl

/-! ## Repeating the rows -/

/-- Row k of the repeated matrix is row k / 128 of the argument. -/
theorem rep_apply {α : Type} (a : S32x11008.Idx → α) (k : Fin 4096) (n : Fin 11008) :
    rep a (ix2 k n) = a (ix2 (grp k) n) := by
  unfold rep
  rw [shapeCast_apply _ _ (ix2 k n) (ix3 (grp k) (⟨k.val % 128, by omega⟩ : Fin 128) n) (by
    rw [Shape.rowMajor_val_three, Shape.rowMajor_val_two]
    show ((k.val / 128 * 128 + k.val % 128) * 11008 + n.val) = k.val * 11008 + n.val
    omega),
    broadcastInDim_apply _ bcast_S32x11008_S32x128x11008_0_2 a _ (ix2 (grp k) n)
      (fun a => by match a with | ⟨0, _⟩ => rfl | ⟨1, _⟩ => rfl)]

/-! ## The weight, the bias, the result -/

/-- The weight at (k, n): the difference of the two fields, as a number, times the group's scale. -/
theorem weight_apply (qw : IVec S4096x1376 32) (qz : IVec S32x1376 32) (sc : FVec Ideal S32x11008 .f32)
    (k : Fin 4096) (n : Fin 11008) :
    weight (F := Ideal) qw qz sc (ix2 k n)
      = (((nib (qw (ix2 k (colOf n))) (subOf n) - nib (qz (ix2 (grp k) (colOf n))) (subOf n)).toInt : ℝ) : EReal)
        * sc (ix2 (grp k) n) := by
  unfold weight
  rw [mulf_apply, rep_apply]
  show ((((unpackW qw (ix2 k n) - rep (unpackZ qz) (ix2 k n)).toInt : ℝ) : EReal)) * _ = _
  rw [unpackW_apply, rep_apply, unpackZ_apply]

/-- The repeated bias at (b, n) is the bias at n. -/
theorem biasFull_apply {α : Type} (bias : S11008.Idx → α) (b : Fin 64) (n : Fin 11008) :
    broadcastInDim S64x11008 ![0, 1] bcast_S1x11008_S64x11008_0_1 (broadcastInDim S1x11008 ![1] bcast_S11008_S1x11008_1 bias) (ix2 b n)
      = bias (ix1 n) := by
  rw [broadcastInDim_apply _ bcast_S1x11008_S64x11008_0_1 _ (ix2 b n) (ix2 0 n)
      (fun a => by match a with | ⟨0, _⟩ => rfl | ⟨1, _⟩ => rfl),
    broadcastInDim_apply _ bcast_S11008_S1x11008_1 bias (ix2 0 n) (ix1 n)
      (fun a => by match a with | ⟨0, _⟩ => rfl)]

/-- The reference's composed term is the closed form. -/
theorem refTerm_eq_G (x : FVec Ideal S64x4096 .f32) (qw : IVec S4096x1376 32) (qz : IVec S32x1376 32)
    (sc : FVec Ideal S32x11008 .f32) (bias : FVec Ideal S11008 .f32) :
    RefRun.refTerm (F := Ideal) x qw qz sc bias = Cert.Awq.G x qw qz sc bias := by
  funext j
  obtain ⟨b, n, rfl⟩ : ∃ (b : Fin 64) (n : Fin 11008), j = ix2 b n := ⟨j 0, j 1, eq_ix2 j⟩
  unfold refTerm biasFull
  rw [addf_apply, biasFull_apply]
  show Host.dotGeneral (F := Ideal) (DotDims.plain 64 4096 11008) none x (weight (F := Ideal) qw qz sc) (ix2 b n) + _ = _
  rw [StackMember.dotGeneral_plain_apply]
  unfold G
  show _ = (∑ k : Fin 4096, x (ix2 b k) *
      ((((nib (qw (ix2 k (colOf n))) (subOf n) - nib (qz (ix2 (grp k) (colOf n))) (subOf n)).toInt : ℝ) : EReal)
        * sc (ix2 (grp k) n))) + bias (ix1 n)
  congr 1
  exact Finset.sum_congr rfl fun k _ => by rw [weight_apply]

end Cert.ReferenceIdeal.RefValue

end
-- ==== Proof.LibExtReal.lean ====
/-
  Extended reals that are real numbers.  The extended reals carry two infinities, and the distributive law
  x * (a + b) = x * a + x * b fails there (take x = +∞, a = 1, b = -1).  It does hold when every term is a
  real number, and being a real number is preserved by finite sums, products, maxima, and by quotients whose
  divisor is a real number other than zero.  This file collects those facts, and the one identity built on
  them: a sum over 2n terms whose second half multiplies one fixed finite factor splits as the first half's sum
  plus that factor times the sum of the second half's other factors.
-/
import Idealize.ShloMosaic.PureOps.Ideal.Laws

namespace Cert.ExtReal

open Idealize.ShloMosaic

/-- The extended real `x` is (the image of) a real number. -/
def IsFin (x : EReal) : Prop := ∃ r : ℝ, x = (r : EReal)

theorem IsFin.coe (r : ℝ) : IsFin (r : EReal) := ⟨r, rfl⟩

theorem IsFin.zero : IsFin 0 := ⟨0, EReal.coe_zero.symm⟩

theorem IsFin.one : IsFin 1 := ⟨1, EReal.coe_one.symm⟩

theorem IsFin.add {x y : EReal} (hx : IsFin x) (hy : IsFin y) : IsFin (x + y) := by
  obtain ⟨a, rfl⟩ := hx; obtain ⟨b, rfl⟩ := hy
  exact ⟨a + b, (EReal.coe_add a b).symm⟩

theorem IsFin.mul {x y : EReal} (hx : IsFin x) (hy : IsFin y) : IsFin (x * y) := by
  obtain ⟨a, rfl⟩ := hx; obtain ⟨b, rfl⟩ := hy
  exact ⟨a * b, (EReal.coe_mul a b).symm⟩

theorem IsFin.max {x y : EReal} (hx : IsFin x) (hy : IsFin y) : IsFin (max x y) := by
  rcases le_total x y with h | h
  · rw [max_eq_right h]; exact hy
  · rw [max_eq_left h]; exact hx

/-- A finite sum of real numbers is a real number. -/
theorem IsFin.sum {ι : Type} (s : Finset ι) (f : ι → EReal) : (∀ i ∈ s, IsFin (f i)) → IsFin (∑ i ∈ s, f i) := by
  classical
  refine Finset.induction_on s (fun _ => ?_) (fun a s ha ih h => ?_)
  · rw [Finset.sum_empty]; exact IsFin.zero
  · rw [Finset.sum_insert ha]
    exact (h a (Finset.mem_insert_self a s)).add (ih fun i hi => h i (Finset.mem_insert_of_mem hi))

/-- The quotient of two real numbers, the divisor not zero, is a real number. -/
theorem IsFin.div {x y : EReal} (hx : IsFin x) (hy : IsFin y) (h0 : y ≠ 0) : IsFin (Ideal.div x y) := by
  obtain ⟨a, rfl⟩ := hx; obtain ⟨b, rfl⟩ := hy
  unfold Ideal.div
  rw [if_neg h0, ← EReal.coe_inv, ← EReal.coe_mul]
  exact ⟨_, rfl⟩

/-- The larger of anything and one is not zero. -/
theorem max_one_ne_zero (x : EReal) : max x 1 ≠ 0 :=
  (lt_of_lt_of_le zero_lt_one (le_max_right x 1)).ne'

/-- Among real numbers multiplication distributes over addition. -/
theorem mul_add_of_isFin {x y z : EReal} (hx : IsFin x) (hy : IsFin y) (hz : IsFin z) :
    x * (y + z) = x * y + x * z := by
  obtain ⟨a, rfl⟩ := hx; obtain ⟨b, rfl⟩ := hy; obtain ⟨c, rfl⟩ := hz
  exact_mod_cast mul_add a b c

/-- A real factor moves inside a finite sum of real numbers. -/
theorem mul_sum_of_isFin {ι : Type} (s : Finset ι) (x : EReal) (f : ι → EReal) (hx : IsFin x) :
    (∀ i ∈ s, IsFin (f i)) → x * ∑ i ∈ s, f i = ∑ i ∈ s, x * f i := by
  classical
  refine Finset.induction_on s (fun _ => ?_) (fun a s ha ih h => ?_)
  · rw [Finset.sum_empty, Finset.sum_empty, mul_zero]
  · rw [Finset.sum_insert ha, Finset.sum_insert ha,
      mul_add_of_isFin hx (h a (Finset.mem_insert_self a s))
        (IsFin.sum s f fun i hi => h i (Finset.mem_insert_of_mem hi)),
      ih fun i hi => h i (Finset.mem_insert_of_mem hi)]

/-- A sum of products over `n + n` terms, whose first `n` left factors are `u` and whose last `n` left factors
    are all the one real number `x`, the right factors being `v` then the real numbers `w`: it is the sum of
    `u d * v d` plus `x` times the sum of `w`. -/
theorem sum_two_halves {n : ℕ} (l r : Fin (n + n) → EReal) (u v w : Fin n → EReal) (x : EReal)
    (hl1 : ∀ d, l (Fin.castAdd n d) = u d) (hl2 : ∀ d, l (Fin.natAdd n d) = x)
    (hr1 : ∀ d, r (Fin.castAdd n d) = v d) (hr2 : ∀ d, r (Fin.natAdd n d) = w d)
    (hx : IsFin x) (hw : ∀ d, IsFin (w d)) :
    ∑ k, l k * r k = (∑ d, u d * v d) + x * ∑ d, w d := by
  rw [Fin.sum_univ_add, mul_sum_of_isFin Finset.univ x w hx fun d _ => hw d]
  congr 1
  · exact Finset.sum_congr rfl fun d _ => by rw [hl1, hr1]
  · exact Finset.sum_congr rfl fun d _ => by rw [hl2, hr2]

end Cert.ExtReal
-- ==== Proof.Law.lean ====
/-
  The algebra behind the equality of the two programs.

  Both sides are, at an output place (b, n), a sum over the 4096 rows plus one bias term.  The reference adds
  x[b,k] · ((w[k] − z[k/128]) · s[k/128]) row by row.  The other side first cuts the rows into 32 groups of 128 and,
  inside a group where z and s do not change, uses
      s · (∑ⱼ xⱼ · wⱼ) − (∑ⱼ xⱼ) · (z · s)  =  ∑ⱼ xⱼ · ((wⱼ − z) · s),
  which is distributivity.  Distributivity is a law of the real numbers and not of the extended reals, so the
  argument first names the real numbers behind x, s and the bias, proves the identity there, and carries it back
  along the embedding of the reals, which respects sums, products and differences.

  Two smaller facts are needed on the way.  A 4-bit field lies between 0 and 15, so the 32-bit difference of two
  fields cannot wrap and is the difference of the two numbers.  And reading the field-major arrangement back in
  column order lands on the word and the field the reference uses for that column.
-/
import proofs.«427614_j45208825758173_3_alg».proof.Proof.Spec
import proofs.«427614_j45208825758173_3_alg».proof.Proof.LibExtReal
import proofs.«427614_j45208825758173_3_alg».proof.Proof.LibBlockSum
import Mathlib.Data.EReal.Operations
import Mathlib.Algebra.BigOperators.Ring.Finset
import Mathlib.Tactic.Ring

noncomputable section

namespace Cert.Awq

open Cert.ExtReal Idealize.ShloMosaic Idealize.ShloMosaic.ValueIdx

/-! ### A field is a number from 0 to 15 -/

/-- Masking with 15 leaves at most 15. -/
private theorem nib_toNat_le (q : BitVec 32) (s : Fin 8) : (nib q s).toNat ≤ 15 := by
  unfold nib
  rw [BitVec.toNat_and]
  exact Nat.and_le_right

/-- So small a word has its top bit clear: read as a signed number it is the same number. -/
private theorem nib_toInt_eq_toNat (q : BitVec 32) (s : Fin 8) : (nib q s).toInt = ((nib q s).toNat : ℤ) := by
  have h := nib_toNat_le q s
  apply BitVec.toInt_eq_toNat_of_lt
  omega

theorem nib_toInt_bounds (q : BitVec 32) (s : Fin 8) : 0 ≤ (nib q s).toInt ∧ (nib q s).toInt ≤ 15 := by
  have h := nib_toNat_le q s
  rw [nib_toInt_eq_toNat]
  omega

/-- The difference of two fields lies between −15 and 15, far inside the 32-bit signed range, so the machine
    subtraction is the subtraction of integers. -/
theorem nib_sub_toInt (a b : BitVec 32) (s : Fin 8) :
    (nib a s - nib b s).toInt = (nib a s).toInt - (nib b s).toInt := by
  obtain ⟨ha0, ha1⟩ := nib_toInt_bounds a s
  obtain ⟨hb0, hb1⟩ := nib_toInt_bounds b s
  rw [BitVec.toInt_sub]
  apply Int.bmod_eq_of_le_mul_two <;> omega

/-! ### Positions -/

/-- The field-major position of column n holds column n. -/
private theorem unperm_perm (n : Fin 11008) : unperm (perm n) = n := by
  apply Fin.ext
  have := n.isLt
  simp only [unperm, perm]
  omega

/-- … in the packed word of column n … -/
private theorem pcol_perm (n : Fin 11008) : pcol (perm n) = colOf n := by
  apply Fin.ext
  have := n.isLt
  simp only [pcol, perm, colOf]
  omega

/-- … as the field of column n. -/
private theorem psub_perm (n : Fin 11008) : psub (perm n) = subOf n := by
  apply Fin.ext
  have := n.isLt
  simp only [psub, perm, subOf]
  omega

/-- Row j of group Gi belongs to group Gi. -/
private theorem grp_kOf (Gi : Fin 32) (j : Fin 128) : grp (kOf Gi j) = Gi := by
  apply Fin.ext
  have := j.isLt
  simp only [grp, kOf]
  omega

/-- Place j of block Gi, when 4096 rows are cut into 32 blocks of 128, is row j of group Gi. -/
private theorem pos_eq_kOf (h : 4096 = 32 * 128) (Gi : Fin 32) (j : Fin 128) :
    Cert.BlockSum.pos 32 128 h Gi j = kOf Gi j := by
  apply Fin.ext
  simp only [Cert.BlockSum.pos_val, kOf]
  omega

/-! ### From the reals to the extended reals -/

/-- The embedding of the reals respects finite sums. -/
private theorem coe_sum {ι : Type} (s : Finset ι) (f : ι → ℝ) :
    ((∑ i ∈ s, f i : ℝ) : EReal) = ∑ i ∈ s, (f i : EReal) := by
  classical
  refine Finset.induction_on s ?_ (fun a s ha ih => ?_)
  · rw [Finset.sum_empty, Finset.sum_empty, EReal.coe_zero]
  · rw [Finset.sum_insert ha, Finset.sum_insert ha, EReal.coe_add, ih]

/-- One group, over the reals: pull the common factors s and z · s inside the sums and compare term by term. -/
private theorem block_real (S Z : ℝ) (X W : Fin 128 → ℝ) :
    S * (∑ j, X j * W j) - (∑ j, X j) * (Z * S) = ∑ j, X j * ((W j - Z) * S) := by
  rw [Finset.mul_sum, Finset.sum_mul, ← Finset.sum_sub_distrib]
  exact Finset.sum_congr rfl fun j _ => by ring

/-- One group, over the extended reals, every quantity being a real number (the fields are integers). -/
private theorem block_ereal (S : ℝ) (Z : ℤ) (X : Fin 128 → ℝ) (W : Fin 128 → ℤ) :
    (S : EReal) * (∑ j, (X j : EReal) * (((W j : ℤ) : ℝ) : EReal))
        - (∑ j, (X j : EReal)) * ((((Z : ℤ) : ℝ) : EReal) * (S : EReal))
      = ∑ j, (X j : EReal) * ((((W j - Z : ℤ) : ℝ) : EReal) * (S : EReal)) := by
  have h := block_real S (Z : ℝ) X (fun j => (W j : ℝ))
  calc (S : EReal) * (∑ j, (X j : EReal) * (((W j : ℤ) : ℝ) : EReal))
          - (∑ j, (X j : EReal)) * ((((Z : ℤ) : ℝ) : EReal) * (S : EReal))
      = ((S * (∑ j, X j * (W j : ℝ)) - (∑ j, X j) * ((Z : ℝ) * S) : ℝ) : EReal) := by
        rw [EReal.coe_sub, EReal.coe_mul, EReal.coe_mul, EReal.coe_mul, coe_sum, coe_sum]
        simp only [EReal.coe_mul]
    _ = ((∑ j, X j * (((W j : ℝ) - (Z : ℝ)) * S) : ℝ) : EReal) := by rw [h]
    _ = ∑ j, (X j : EReal) * ((((W j - Z : ℤ) : ℝ) : EReal) * (S : EReal)) := by
        rw [coe_sum]
        refine Finset.sum_congr rfl fun j _ => ?_
        rw [EReal.coe_mul, EReal.coe_mul, Int.cast_sub]

/-! ### The two arrangements agree -/

/-- The kernel's value at (b, n), spelled out: the groups' contributions at the field-major position of n. -/
private theorem K_apply (x : SX.Idx → EReal) (qw : SQ.Idx → BitVec 32) (qz : SZ.Idx → BitVec 32) (sc : SS.Idx → EReal)
    (bias : SB.Idx → EReal) (b : Fin 64) (n : Fin 11008) :
    K x qw qz sc bias (ix2 b n)
      = (∑ Gi : Fin 32, corr x qw qz sc b (perm n) Gi) + bias (ix1 (unperm (perm n))) := rfl

/-- The reference's value at (b, n), spelled out. -/
private theorem G_apply (x : SX.Idx → EReal) (qw : SQ.Idx → BitVec 32) (qz : SZ.Idx → BitVec 32) (sc : SS.Idx → EReal)
    (bias : SB.Idx → EReal) (b : Fin 64) (n : Fin 11008) :
    G x qw qz sc bias (ix2 b n)
      = (∑ k : Fin 4096, x (ix2 b k) *
          ((((nib (qw (ix2 k (colOf n))) (subOf n) - nib (qz (ix2 (grp k) (colOf n))) (subOf n)).toInt : ℝ) : EReal)
            * sc (ix2 (grp k) n))) + bias (ix1 n) := rfl

/-- One group of the kernel is that group's 128 rows of the reference. -/
private theorem corr_eq_block (qw : SQ.Idx → BitVec 32) (qz : SZ.Idx → BitVec 32)
    (X : SX.Idx → ℝ) (S : SS.Idx → ℝ) (b : Fin 64) (n : Fin 11008) (Gi : Fin 32) :
    corr (fun i => (X i : EReal)) qw qz (fun i => (S i : EReal)) b (perm n) Gi
      = ∑ j : Fin 128, (X (ix2 b (kOf Gi j)) : EReal) *
          ((((nib (qw (ix2 (kOf Gi j) (colOf n))) (subOf n)
              - nib (qz (ix2 (grp (kOf Gi j)) (colOf n))) (subOf n)).toInt : ℝ) : EReal)
            * (S (ix2 (grp (kOf Gi j)) n) : EReal)) := by
  simp only [corr, nibR, grp_kOf, unperm_perm, pcol_perm, psub_perm, nib_sub_toInt]
  exact block_ereal _ _ _ _

theorem K_eq_G (x : SX.Idx → EReal) (qw : SQ.Idx → BitVec 32) (qz : SZ.Idx → BitVec 32) (sc : SS.Idx → EReal)
    (bias : SB.Idx → EReal)
    (hx : ∀ i, IsFin (x i)) (hs : ∀ i, IsFin (sc i)) (hb : ∀ i, IsFin (bias i)) :
    K x qw qz sc bias = G x qw qz sc bias := by
  choose X hX using hx
  choose S hS using hs
  obtain rfl : x = fun i => (X i : EReal) := funext hX
  obtain rfl : sc = fun i => (S i : EReal) := funext hS
  funext j
  obtain ⟨b, n, rfl⟩ : ∃ (b : Fin 64) (n : Fin 11008), j = ix2 b n := ⟨j 0, j 1, eq_ix2 j⟩
  rw [K_apply, G_apply, unperm_perm]
  refine congrArg (fun t => t + bias (ix1 n)) ?_
  rw [Cert.BlockSum.sum_blocks (N := 4096) 32 128 rfl]
  refine Finset.sum_congr rfl fun Gi _ => ?_
  simp only [pos_eq_kOf]
  exact corr_eq_block qw qz X S b n Gi

end Cert.Awq

end
-- ==== Proof.Finite.lean ====
/-
  From the stated precondition to "every float entry is a real number".

  The precondition is the conjunction of three tests, one per float input: every entry's absolute value lies
  strictly below +∞.  Over the extended reals the absolute value of a is the larger of a and -a.  For a = +∞ this
  is +∞, and for a = -∞ it is again +∞ (as -(-∞) = +∞), so neither infinity passes the strict test; what passes is
  a real number.  A conjunction that comes out true had every conjunct true, and a test over all entries that comes
  out true held at each entry, so each entry of each float input is a real number.
-/
import proofs.«427614_j45208825758173_3_alg».proof.Pre_finite_inputs
import proofs.«427614_j45208825758173_3_alg».proof.Proof.Gen.Pre_finite_inputs
import proofs.«427614_j45208825758173_3_alg».proof.Proof.LibExtReal
import Idealize.ShloMosaic.Lib.ReduceAll
import Idealize.ShloMosaic.Lib.ValueIdx
import Idealize.ShloMosaic.Lib.IdealHost
import Idealize.ShloMosaic.PureOps.Ideal.Laws

namespace Cert.Awq

open Idealize.ShloMosaic Idealize.ShloMosaic.ValueIdx Cert.ExtReal

/-- The 32-bit pattern with all exponent bits set and nothing else denotes +∞. -/
private theorem ofBits_inf : Ideal.ofBits .f32 0x7F800000#32 = (⊤ : EReal) := by
  simp [Ideal.ofBits, Ideal.ieee]

/-- An extended real whose absolute value is strictly below +∞ is a real number. -/
private theorem isFin_of_abs_lt_top (a : EReal) (h : max a (-a) < ⊤) : IsFin a := by
  induction a using EReal.rec with
  | bot => exact absurd h (by simp)
  | coe r => exact ⟨r, rfl⟩
  | top => exact absurd h (by simp)

/-- The strict comparison of two extended reals, read back from its one-bit result. -/
private theorem lt_of_cmp_olt (a b : EReal) (h : Ideal.cmp .olt a b = 1#1) : a < b := by
  unfold Ideal.cmp at h
  by_contra hn
  simp [hn] at h

/-- One entry's test: the absolute value compared against the broadcast +∞ pattern came out true. -/
private theorem isFin_of_entry {S : Shape} (hb : Cert.Pre_finite_inputs.S_.BroadcastsInDim S ![])
    (v : FVec Ideal S .f32) (i : S.Idx)
    (h : cmpf .olt (Host.absf v)
      (broadcastInDim S ![] hb (constant (F := Ideal) Cert.Pre_finite_inputs.S_ .f32 0x7F800000#32)) i = 1#1) :
    IsFin (v i) := by
  rw [cmpf_apply, broadcastInDim_scalar_apply, constant_apply, ofBits_inf] at h
  exact isFin_of_abs_lt_top (v i) (lt_of_cmp_olt _ _ h)

private instance : Subsingleton Cert.Pre_finite_inputs.S_.Idx := ⟨fun a b => funext fun d => d.elim0⟩

/-- Under the precondition every entry of the activations, of the scales and of the bias is a real number. -/
theorem isFin_of_pre (x : FVec Ideal Cert.Pre_finite_inputs.S64x4096 .f32) (qw : IVec Cert.Pre_finite_inputs.S4096x1376 32)
    (qz : IVec Cert.Pre_finite_inputs.S32x1376 32) (sc : FVec Ideal Cert.Pre_finite_inputs.S32x11008 .f32)
    (bias : FVec Ideal Cert.Pre_finite_inputs.S11008 .f32)
    (h : Cert.Pre_finite_inputs.fn (F := Ideal) x qw qz sc bias = fun _ => 1#1) :
    (∀ i, IsFin (x i)) ∧ (∀ i, IsFin (sc i)) ∧ (∀ i, IsFin (bias i)) := by
  have h0 := congrFun h ValueIdx.ix0
  dsimp only [Cert.Pre_finite_inputs.fn] at h0
  obtain ⟨h12, h3⟩ := IntOp.andi_eq_one.1 h0
  obtain ⟨h1, h2⟩ := IntOp.andi_eq_one.1 h12
  refine ⟨fun i => ?_, fun i => ?_, fun i => ?_⟩
  · exact isFin_of_entry _ x i (Host.reduce_andi_all _ _ _ _ _ h1 i)
  · exact isFin_of_entry _ sc i (Host.reduce_andi_all _ _ _ _ _ h2 i)
  · exact isFin_of_entry _ bias i (Host.reduce_andi_all _ _ _ _ _ h3 i)

end Cert.Awq
-- ==== Proof.lean ====
/-
  An int4 weight-only linear layer.  The weights arrive packed, eight 4-bit fields to a 32-bit word; every group of
  128 input rows has its own zero points (packed the same way) and scales.  The reference unpacks the whole weight
  matrix, subtracts each group's zero point, scales, multiplies by the activations and adds the bias:

      out[b, n] = ∑ₖ x[b, k] · ((w[k, n] − z[k / 128, n]) · s[k / 128, n]) + bias[n].

  The kernel never forms the dequantised matrix.  It keeps the columns in field-major order (all columns of field 0,
  then all of field 1, …), so that one shift and mask of a packed tile yields a whole block of columns, and it moves
  the zero point and the scale out of the inner product: per group,

      s · (∑ⱼ x · w) − (∑ⱼ x) · (z · s),

  accumulated over the 32 groups (four grid steps of eight groups) into a block that stays resident, with the bias
  added at the last step; the scales, the products z · s and the bias are put in field-major order before the call
  and the result is put back in column order after it.

  Over the real numbers the two are the same sum: distributing x · ((w − z) · s) over the group's rows and pulling
  the group's constants z and s out of the sums is exactly the kernel's arrangement.  On the extended reals that
  step needs every term finite, which the precondition (all float inputs finite) gives; the packed integers are
  finite by themselves, and the integer difference of two fields in [0, 15] does not wrap.

  The modules: Spec (the two arrangements as functions of the arguments), Law (they agree on finite inputs),
  Finite (the precondition read as finiteness), RefRun and RefValue (the reference's run, and its result term read
  at an index), KTrip, KOut, KGrid (one loop trip, one grid step, the grid), KPay and KHost (a trip's arithmetic and
  the host operations around the call, read at an index), KIdx (the kernel's run at the kernel's arrangement).
-/
import proofs.«427614_j45208825758173_3_alg».proof.Defs
import proofs.«427614_j45208825758173_3_alg».proof.Proof.Gen.Kernel
import proofs.«427614_j45208825758173_3_alg».proof.Proof.Gen.KernelIdeal
import proofs.«427614_j45208825758173_3_alg».proof.Proof.Gen.ReferenceIdeal
import proofs.«427614_j45208825758173_3_alg».proof.Proof.Gen.Pre_finite_inputs
import proofs.«427614_j45208825758173_3_alg».proof.Proof.KFrame
import proofs.«427614_j45208825758173_3_alg».proof.Proof.KIdx
import proofs.«427614_j45208825758173_3_alg».proof.Proof.RefValue
import proofs.«427614_j45208825758173_3_alg».proof.Proof.Law
import proofs.«427614_j45208825758173_3_alg».proof.Proof.Finite
import Idealize.ShloMosaic.Adequacy
import Idealize.ShloMosaic.Init

noncomputable section

namespace Cert.Proof

open Idealize.ShloMosaic Idealize.SL.Sem

/-- The word-level kernel runs and leaves its arguments alone. -/
theorem frame_k : Cert.frame_Kernel := fun m ρ _ => Cert.Kernel.GenP.frame m ρ

/-- So does its idealisation. -/
theorem frame_ki : Cert.frame_KernelIdeal := fun m ρ _ => Cert.KernelIdeal.GenP.frame m ρ

/-- The reference is straight-line host code: its run, with the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- The ideal pass rewrote nothing. -/
theorem preserves : Cert.preserves_Kernel_KernelIdeal := trivial

/-- Both programs end at the same array: the kernel at its arrangement of the sum, the reference at its own, and on
    finite inputs the two arrangements agree. -/
theorem algebraic : Cert.algebraic_KernelIdeal_ReferenceIdeal := by
  intro m ρ m' ρ' hpre hagree
  refine ⟨fun c => Cert.Awq.K (Cert.KernelIdeal.Idx.ax m c) (Cert.KernelIdeal.Idx.aq m c) (Cert.KernelIdeal.Idx.az m c)
    (Cert.KernelIdeal.Idx.asc m c) (Cert.KernelIdeal.Idx.ab m c), Cert.KernelIdeal.Idx.krun m ρ, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2.1, (hagree c).2.2.1, (hagree c).2.2.2.1, (hagree c).2.2.2.2,
    Cert.ReferenceIdeal.RefValue.refTerm_eq_G]
  obtain ⟨hx, hs, hb⟩ := Cert.Awq.isFin_of_pre _ _ _ _ _ (hpre c)
  exact (Cert.Awq.K_eq_G _ _ _ _ _ hx hs hb).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
